-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000 : S_.BroadcastsInDim S100000 (![] : Fin 0 → Fin S100000.rank)
  reducesTo_S100000_S_d0 : S100000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S100000 .f32) (main_arg3 : FVec F S128x128 .f32) (main_arg4 : FVec F S128 .f32) (main_arg5 : FVec F S128x128 .f32) (main_arg6 : FVec F S128 .f32) (main_arg7 : FVec F S128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000 .f32 := Host.absf main_arg2
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S10000x128 : Shape := ⟨2, ![10000, 128]⟩
abbrev S10000x1 : Shape := ⟨2, ![10000, 1]⟩

abbrev nBuf : Space → Nat
  | .hbm => 92
  | .vmem => 37
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S100000x1, .f32⟩
  | .hbm, ⟨10, _⟩ => ⟨S1x128, .f32⟩
  | .hbm, ⟨11, _⟩ => ⟨S1x128, .f32⟩
  | .hbm, ⟨12, _⟩ => ⟨S100000x128, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S100000, .i32⟩
  | .hbm, ⟨18, _⟩ => ⟨S1700000, .i32⟩
  | .hbm, ⟨19, _⟩ => ⟨S1700000, .i32⟩
  | .hbm, ⟨20, _⟩ => ⟨S_, .f32⟩
  | .hbm, ⟨21, _⟩ => ⟨S1700000, .f32⟩
  | .hbm, ⟨22, _⟩ => ⟨S_, .f32⟩
  | .hbm, ⟨23, _⟩ => ⟨S100000, .f32⟩
  | .hbm, ⟨24, _⟩ => ⟨S1700000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S1700000x1, .f32⟩
  | .hbm, ⟨57, _⟩ => ⟨S_, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S100000x128, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x128, .f32⟩
  | .hbm, ⟨71, _⟩ => ⟨S1700000x128, .f32⟩
  | .hbm, ⟨72, _⟩ => ⟨S_, .f32⟩
  | .hbm, ⟨73, _⟩ => ⟨S100000x128, .f32⟩
  | .hbm, ⟨74, _⟩ => ⟨S1700000x1, .i32⟩
  | .hbm, ⟨75, _⟩ => ⟨S100000x128, .f32⟩
  | .hbm, ⟨76, _⟩ => ⟨S100000x128, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x128, .f32⟩
  | .hbm, ⟨86, _⟩ => ⟨S1700000x128, .f32⟩
  | .hbm, ⟨87, _⟩ => ⟨S_, .f32⟩
  | .hbm, ⟨88, _⟩ => ⟨S100000x128, .f32⟩
  | .hbm, ⟨89, _⟩ => ⟨S1700000x1, .i32⟩
  | .hbm, ⟨90, _⟩ => ⟨S100000x128, .f32⟩
  | .hbm, ⟨91, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S1x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S128x128, .f32⟩
  | .local _ .vmem, ⟨12, _⟩ => ⟨S5000x128, .f32⟩
  | .local _ .vmem, ⟨13, _⟩ => ⟨S5000x128, .f32⟩
  | .local _ .vmem, ⟨14, _⟩ => ⟨S10000x128, .f32⟩
  | .local _ .vmem, ⟨15, _⟩ => ⟨S10000x128, .f32⟩
  | .local _ .vmem, ⟨16, _⟩ => ⟨S10000x1, .f32⟩
  | .local _ .vmem, ⟨17, _⟩ => ⟨S10000x1, .f32⟩
  | .local _ .vmem, ⟨18, _⟩ => ⟨S10000x128, .f32⟩
  | .local _ .vmem, ⟨19, _⟩ => ⟨S10000x128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S128x128, .f32⟩
  | .local _ .vmem, ⟨24, _⟩ => ⟨S5000x128, .f32⟩
  | .local _ .vmem, ⟨25, _⟩ => ⟨S5000x128, .f32⟩
  | .local _ .vmem, ⟨26, _⟩ => ⟨S10000x128, .f32⟩
  | .local _ .vmem, ⟨27, _⟩ => ⟨S10000x128, .f32⟩
  | .local _ .vmem, ⟨28, _⟩ => ⟨S10000x1, .f32⟩
  | .local _ .vmem, ⟨29, _⟩ => ⟨S10000x1, .f32⟩
  | .local _ .vmem, ⟨30, _⟩ => ⟨S10000x128, .f32⟩
  | .local _ .vmem, ⟨31, _⟩ => ⟨S10000x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S5000x128, .f32⟩
  | .local _ .vmem, ⟨36, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_c_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg2_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem2_1 : DmaSem sig := 36

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![170], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![170], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  shapeCasts_S100000_S100000x1 : S100000.ShapeCasts S100000x1
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S1700000_S1700000x1 : S1700000.ShapeCasts S1700000x1
  bcast_S_S1x128 : S_.BroadcastsInDim S1x128 (![] : Fin 0 → Fin S1x128.rank)
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S1700000x128.size a
  hwx2_0 : ∀ i : grid2.Coords, EltTy.bits .f32 = 32 ∨ (Rect.block (s := S1700000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S1700000x1.size a
  hwx2_1 : ∀ i : grid2.Coords, EltTy.bits .f32 = 32 ∨ (Rect.block (s := S1700000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S1700000x128.size a
  hwx2_2 : ∀ i : grid2.Coords, EltTy.bits .f32 = 32 ∨ (Rect.block (s := S1700000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S1700000x128.size a
  hwx4_0 : ∀ i : grid4.Coords, EltTy.bits .f32 = 32 ∨ (Rect.block (s := S1700000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1700000x1.size a
  hwx4_1 : ∀ i : grid4.Coords, EltTy.bits .f32 = 32 ∨ (Rect.block (s := S1700000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S1700000x128.size a
  hwx4_2 : ∀ i : grid4.Coords, EltTy.bits .f32 = 32 ∨ (Rect.block (s := S1700000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v51) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v59) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v60) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v63) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v39) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v64) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S100000x1 : Shape := ⟨2, ![100000, 1]⟩
abbrev S1x128 : Shape := ⟨2, ![1, 128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S100000x1, .f32⟩
  | .hbm, ⟨10, _⟩ => ⟨S1x128, .f32⟩
  | .hbm, ⟨11, _⟩ => ⟨S100000x128, .f32⟩
  | .hbm, ⟨12, _⟩ => ⟨S100000x128, .f32⟩
  | .hbm, ⟨13, _⟩ => ⟨S100000x128, .f32⟩
  | .hbm, ⟨14, _⟩ => ⟨S1x128, .f32⟩
  | .hbm, ⟨15, _⟩ => ⟨S100000x128, .f32⟩
  | .hbm, ⟨16, _⟩ => ⟨S100000x128, .f32⟩
  | .hbm, ⟨17, _⟩ => ⟨S100000x128, .f32⟩
  | .hbm, ⟨18, _⟩ => ⟨S100000x128, .f32⟩
  | .hbm, ⟨19, _⟩ => ⟨S100000, .i32⟩
  | .hbm, ⟨20, _⟩ => ⟨S1x1600000, .i32⟩
  | .hbm, ⟨21, _⟩ => ⟨S1600000, .i32⟩
  | .hbm, ⟨22, _⟩ => ⟨S1700000, .i32⟩
  | .hbm, ⟨23, _⟩ => ⟨S1x1600000, .i32⟩
  | .hbm, ⟨24, _⟩ => ⟨S1600000, .i32⟩
  | .hbm, ⟨25, _⟩ => ⟨S1700000, .i32⟩
  | .hbm, ⟨26, _⟩ => ⟨S_, .f32⟩
  | .hbm, ⟨27, _⟩ => ⟨S1700000, .f32⟩
  | .hbm, ⟨28, _⟩ => ⟨S_, .f32⟩
  | .hbm, ⟨29, _⟩ => ⟨S100000, .f32⟩
  | .hbm, ⟨30, _⟩ => ⟨S1700000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .i1⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x128, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000, .f32⟩
  | .hbm, ⟨62, _⟩ => ⟨S1700000, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x128, .f32⟩
  | .hbm, ⟨72, _⟩ => ⟨S1700000x1, .f32⟩
  | .hbm, ⟨73, _⟩ => ⟨S1700000x128, .f32⟩
  | .hbm, ⟨74, _⟩ => ⟨S1700000x128, .f32⟩
  | .hbm, ⟨75, _⟩ => ⟨S_, .f32⟩
  | .hbm, ⟨76, _⟩ => ⟨S100000x128, .f32⟩
  | .hbm, ⟨77, _⟩ => ⟨S1700000x1, .i32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000, .f32⟩
  | .hbm, ⟨101, _⟩ => ⟨S1700000, .f32⟩
  | .hbm, ⟨102, _⟩ => ⟨S_, .i32⟩
  | .hbm, ⟨103, _⟩ => ⟨S1700000, .i32⟩
  | .hbm, ⟨104, _⟩ => ⟨S1700000, .i1⟩
  | .hbm, ⟨105, _⟩ => ⟨S_, .i32⟩
  | .hbm, ⟨106, _⟩ => ⟨S1700000, .i32⟩
  | .hbm, ⟨107, _⟩ => ⟨S1700000, .i32⟩
  | .hbm, ⟨108, _⟩ => ⟨S1700000, .i32⟩
  | .hbm, ⟨109, _⟩ => ⟨S1700000x1, .i32⟩
  | .hbm, ⟨110, _⟩ => ⟨S1700000x128, .f32⟩
  | .hbm, ⟨111, _⟩ => ⟨S1700000x1, .f32⟩
  | .hbm, ⟨112, _⟩ => ⟨S1700000x128, .f32⟩
  | .hbm, ⟨113, _⟩ => ⟨S1700000x128, .f32⟩
  | .hbm, ⟨114, _⟩ => ⟨S_, .f32⟩
  | .hbm, ⟨115, _⟩ => ⟨S100000x128, .f32⟩
  | .hbm, ⟨116, _⟩ => ⟨S1700000x1, .i32⟩
  | .hbm, ⟨117, _⟩ => ⟨S100000x128, .f32⟩
  | .hbm, ⟨118, _⟩ => ⟨S1x128, .f32⟩
  | .hbm, ⟨119, _⟩ => ⟨S100000x128, .f32⟩
  | .hbm, ⟨120, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v26 : Ref sig .tc := ⟨.hbm, 42, rfl⟩
abbrev main_v27 : Ref sig .tc := ⟨.hbm, 43, rfl⟩
abbrev main_c : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_10 : Ref sig .tc := ⟨.hbm, 83, rfl⟩
abbrev main_v60 : Ref sig .tc := ⟨.hbm, 84, rfl⟩
abbrev main_v61 : Ref sig .tc := ⟨.hbm, 85, rfl⟩
abbrev main_c_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_12 : Ref sig .tc := ⟨.hbm, 92, rfl⟩
abbrev main_v67 : Ref sig .tc := ⟨.hbm, 93, rfl⟩
abbrev main_v68 : Ref sig .tc := ⟨.hbm, 94, rfl⟩
abbrev main_c_13 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_14 : Ref sig .tc := ⟨.hbm, 102, rfl⟩
abbrev main_v75 : Ref sig .tc := ⟨.hbm, 103, rfl⟩
abbrev main_v76 : Ref sig .tc := ⟨.hbm, 104, rfl⟩
abbrev main_c_15 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_16 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩

abbrev nD : Nat := 1
abbrev τ : Topo := Topo.v7x

variable {F : FTy → Type} [FloatOps F]

class Facts₀ : Prop where
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.HostStretches.lean ====
/-
  The host operations between the launches, read as the reference's stages. Each stretch of host operations is run from
  ANY buffer contents `X` and for any float values: a buffer the stretch writes ends at the operations' composed term of
  what `X` holds at the buffers the stretch reads, and a buffer it does not write keeps what `X` holds. Where `X` holds
  the reference's stages at the buffers read, the composed term is the reference's next stage: the two programs apply the
  same operations (the index normalisation `i < 0 ? i + N : i`, the gathers, the scatter-adds, the degree
  normalisation `deg > 0 ? rsqrt (max deg ε) : 0`), so the terms agree by unfolding the stage names.
-/
import proofs.«119969_j68659347194091_1_alg».proof.Proof.Gen.KernelIdeal.Launch
import proofs.«119969_j68659347194091_1_alg».proof.Proof.RefRead
import Idealize.ShloMosaic.Lib.StableHlo.Run

set_option maxRecDepth 16384

noncomputable section

namespace Cert.KernelIdeal.Stretch

open Idealize.ShloMosaic Idealize.ShloMosaic.TcCoe Idealize.ShloMosaic.StableHlo Idealize.SL.Sem
open Cert.KernelIdeal Cert.KernelIdeal.Gen
open Cert.ReferenceIdeal.ReadP

variable {F : FTy → Type} [FloatOps F] (X : Valuation τ sig (Elt F))
variable (x0 : (⟨Cert.ReferenceIdeal.S100000x128, .f32⟩ : BufTy).Contents (Elt F)) (x1 : (⟨Cert.ReferenceIdeal.S2x1600000, .i32⟩ : BufTy).Contents (Elt F)) (x2 : (⟨Cert.ReferenceIdeal.S100000, .f32⟩ : BufTy).Contents (Elt F))
  (x3 : (⟨Cert.ReferenceIdeal.S128x128, .f32⟩ : BufTy).Contents (Elt F)) (x4 : (⟨Cert.ReferenceIdeal.S128, .f32⟩ : BufTy).Contents (Elt F)) (x5 : (⟨Cert.ReferenceIdeal.S128x128, .f32⟩ : BufTy).Contents (Elt F))
  (x6 x7 x8 : (⟨Cert.ReferenceIdeal.S128, .f32⟩ : BufTy).Contents (Elt F))

/-! ## Before the first launch: the time as a column, frequency and phase as rows -/

theorem s0_v0 : after hostOps0 X (Proc.devRef .tc main_v0)
    = shapeCast S100000x1 (X (Proc.devRef .tc main_arg2)) shapeCasts_S100000_S100000x1 := by
  after_results <;> rfl
theorem s0_v1 : after hostOps0 X (Proc.devRef .tc main_v1)
    = shapeCast S1x128 (X (Proc.devRef .tc main_arg7)) shapeCasts_S128_S1x128 := by
  after_results <;> rfl
theorem s0_v2 : after hostOps0 X (Proc.devRef .tc main_v2)
    = shapeCast S1x128 (X (Proc.devRef .tc main_arg8)) shapeCasts_S128_S1x128 := by
  after_results <;> rfl
theorem s0_keep_arg0 : after hostOps0 X (Proc.devRef .tc main_arg0) = X (Proc.devRef .tc main_arg0) := by
  after_results <;> rfl
theorem s0_keep_arg1 : after hostOps0 X (Proc.devRef .tc main_arg1) = X (Proc.devRef .tc main_arg1) := by
  after_results <;> rfl
theorem s0_keep_arg3 : after hostOps0 X (Proc.devRef .tc main_arg3) = X (Proc.devRef .tc main_arg3) := by
  after_results <;> rfl
theorem s0_keep_arg4 : after hostOps0 X (Proc.devRef .tc main_arg4) = X (Proc.devRef .tc main_arg4) := by
  after_results <;> rfl
theorem s0_keep_arg5 : after hostOps0 X (Proc.devRef .tc main_arg5) = X (Proc.devRef .tc main_arg5) := by
  after_results <;> rfl
theorem s0_keep_arg6 : after hostOps0 X (Proc.devRef .tc main_arg6) = X (Proc.devRef .tc main_arg6) := by
  after_results <;> rfl

/-! ## After the first launch: the edge lists with the self loops, the degrees and their test and inverse root -/

/-- The sources with the self loops appended are the reference's `v13`. -/
theorem s1_v9 : after hostOps1 X (Proc.devRef .tc main_v9) = val_main_v13 (F := F) (X (Proc.devRef .tc main_arg1)) := by
  after_results
  simp only [val_main_v13, val_main_v12, val_main_v11, val_main_v10]
  rfl
/-- The destinations with the self loops appended are the reference's `v16`. -/
theorem s1_v10 : after hostOps1 X (Proc.devRef .tc main_v10) = val_main_v16 (F := F) (X (Proc.devRef .tc main_arg1)) := by
  after_results
  simp only [val_main_v16, val_main_v15, val_main_v14, val_main_v10]
  rfl
/-- The test `deg > 0` is the reference's `v22`. -/
theorem s1_v16 : after hostOps1 X (Proc.devRef .tc main_v16) = val_main_v22 (F := F) (X (Proc.devRef .tc main_arg1)) := by
  after_results
  simp only [val_main_v22, val_main_v20, val_main_v18, val_main_cst_0, val_main_v19, val_main_v16, val_main_v15, val_main_v14, val_main_v10, val_main_v17, val_main_cst, val_main_v21, val_main_cst_1]
  rfl
/-- `rsqrt (max deg ε)` is the reference's `v25`. -/
theorem s1_v19 : after hostOps1 X (Proc.devRef .tc main_v19) = val_main_v25 (F := F) (X (Proc.devRef .tc main_arg1)) := by
  after_results
  simp only [val_main_v25, val_main_v24, val_main_v20, val_main_v18, val_main_cst_0, val_main_v19, val_main_v16, val_main_v15, val_main_v14, val_main_v10, val_main_v17, val_main_cst, val_main_v23, val_main_cst_2]
  rfl
/-- The zero the selection falls back to. -/
theorem s1_cst_3 : after hostOps1 X (Proc.devRef .tc main_cst_3) = val_main_cst_3 (F := F) := by
  after_results <;> rfl
theorem s1_keep_v3 : after hostOps1 X (Proc.devRef .tc main_v3) = X (Proc.devRef .tc main_v3) := by
  after_results <;> rfl
theorem s1_keep_arg3 : after hostOps1 X (Proc.devRef .tc main_arg3) = X (Proc.devRef .tc main_arg3) := by
  after_results <;> rfl
theorem s1_keep_arg4 : after hostOps1 X (Proc.devRef .tc main_arg4) = X (Proc.devRef .tc main_arg4) := by
  after_results <;> rfl
theorem s1_keep_arg5 : after hostOps1 X (Proc.devRef .tc main_arg5) = X (Proc.devRef .tc main_arg5) := by
  after_results <;> rfl
theorem s1_keep_arg6 : after hostOps1 X (Proc.devRef .tc main_arg6) = X (Proc.devRef .tc main_arg6) := by
  after_results <;> rfl

/-! ## The selection `deg > 0 ? rsqrt (max deg ε) : 0` -/

/-- The inverse root of the degrees is the reference's `v26`. -/
theorem s1b_v20 (h16 : X (Proc.devRef .tc main_v16) = val_main_v22 (F := F) x1)
    (h19 : X (Proc.devRef .tc main_v19) = val_main_v25 (F := F) x1)
    (hc : X (Proc.devRef .tc main_cst_3) = val_main_cst_3 (F := F)) :
    after hostOps1_1 X (Proc.devRef .tc main_v20) = val_main_v26 (F := F) x1 := by
  after_results
  simp only [val_main_v26, val_main_call0_v1, val_main_call0_v0]
  rw [← h16, ← h19, ← hc]
  rfl
theorem s1b_keep_v3 : after hostOps1_1 X (Proc.devRef .tc main_v3) = X (Proc.devRef .tc main_v3) := by
  after_results <;> rfl
theorem s1b_keep_v9 : after hostOps1_1 X (Proc.devRef .tc main_v9) = X (Proc.devRef .tc main_v9) := by
  after_results <;> rfl
theorem s1b_keep_v10 : after hostOps1_1 X (Proc.devRef .tc main_v10) = X (Proc.devRef .tc main_v10) := by
  after_results <;> rfl
theorem s1b_keep_arg3 : after hostOps1_1 X (Proc.devRef .tc main_arg3) = X (Proc.devRef .tc main_arg3) := by
  after_results <;> rfl
theorem s1b_keep_arg4 : after hostOps1_1 X (Proc.devRef .tc main_arg4) = X (Proc.devRef .tc main_arg4) := by
  after_results <;> rfl
theorem s1b_keep_arg5 : after hostOps1_1 X (Proc.devRef .tc main_arg5) = X (Proc.devRef .tc main_arg5) := by
  after_results <;> rfl
theorem s1b_keep_arg6 : after hostOps1_1 X (Proc.devRef .tc main_arg6) = X (Proc.devRef .tc main_arg6) := by
  after_results <;> rfl

/-! ## The edge norm, the zero row, the bias rows -/

set_option maxHeartbeats 1600000 in
/-- The edge norm `dinv[src] · dinv[dst]`, as a column, is the reference's `v42` reshaped. -/
theorem s1c_v36 (h20 : X (Proc.devRef .tc main_v20) = val_main_v26 (F := F) x1)
    (h9 : X (Proc.devRef .tc main_v9) = val_main_v13 (F := F) x1)
    (h10 : X (Proc.devRef .tc main_v10) = val_main_v16 (F := F) x1) :
    after hostOps1_2 X (Proc.devRef .tc main_v36)
      = shapeCast S1700000x1 (val_main_v42 (F := F) x1) shapeCasts_S1700000_S1700000x1 := by
  after_results_simp
  rw [h20, h9, h10]
  simp only [val_main_v42, val_main_v34, val_main_v33, val_main_v32, val_main_v29, val_main_v28, val_main_c, val_main_v31, val_main_v30, val_main_c_4, val_main_v41, val_main_v40, val_main_v39, val_main_v36, val_main_v35, val_main_c_5, val_main_v38, val_main_v37, val_main_c_6]
  rfl
/-- The zero row the first product adds. -/
theorem s1c_v37 : after hostOps1_2 X (Proc.devRef .tc main_v37)
    = broadcastInDim S1x128 ![] bcast_S_S1x128 (constant (F := F) S_ .f32 0x00000000#32) := by
  after_results <;> rfl
theorem s1c_v38 : after hostOps1_2 X (Proc.devRef .tc main_v38)
    = shapeCast S1x128 (X (Proc.devRef .tc main_arg4)) shapeCasts_S128_S1x128 := by
  after_results <;> rfl
theorem s1c_v39 : after hostOps1_2 X (Proc.devRef .tc main_v39)
    = shapeCast S1x128 (X (Proc.devRef .tc main_arg6)) shapeCasts_S128_S1x128 := by
  after_results <;> rfl
theorem s1c_keep_v3 : after hostOps1_2 X (Proc.devRef .tc main_v3) = X (Proc.devRef .tc main_v3) := by
  after_results <;> rfl
theorem s1c_keep_v9 : after hostOps1_2 X (Proc.devRef .tc main_v9) = X (Proc.devRef .tc main_v9) := by
  after_results <;> rfl
theorem s1c_keep_v10 : after hostOps1_2 X (Proc.devRef .tc main_v10) = X (Proc.devRef .tc main_v10) := by
  after_results <;> rfl
theorem s1c_keep_arg3 : after hostOps1_2 X (Proc.devRef .tc main_arg3) = X (Proc.devRef .tc main_arg3) := by
  after_results <;> rfl
theorem s1c_keep_arg5 : after hostOps1_2 X (Proc.devRef .tc main_arg5) = X (Proc.devRef .tc main_arg5) := by
  after_results <;> rfl

/-! ## Layer 1: the gather of the product's rows at the sources -/

theorem s2_v47 (h40 : X (Proc.devRef .tc main_v40) = val_main_v27 (F := F) x0 x2 x3 x7 x8)
    (h9 : X (Proc.devRef .tc main_v9) = val_main_v13 (F := F) x1) :
    after hostOps2 X (Proc.devRef .tc main_v47) = val_main_v49 (F := F) x0 x1 x2 x3 x7 x8 := by
  after_results
  rw [h40, h9]
  simp only [val_main_v49, val_main_v48, val_main_v47, val_main_v44, val_main_v43, val_main_c_7, val_main_v46, val_main_v45, val_main_c_8]
  rfl
theorem s2_keep_v9 : after hostOps2 X (Proc.devRef .tc main_v9) = X (Proc.devRef .tc main_v9) := by
  after_results <;> rfl
theorem s2_keep_v10 : after hostOps2 X (Proc.devRef .tc main_v10) = X (Proc.devRef .tc main_v10) := by
  after_results <;> rfl
theorem s2_keep_v36 : after hostOps2 X (Proc.devRef .tc main_v36) = X (Proc.devRef .tc main_v36) := by
  after_results <;> rfl
theorem s2_keep_v38 : after hostOps2 X (Proc.devRef .tc main_v38) = X (Proc.devRef .tc main_v38) := by
  after_results <;> rfl
theorem s2_keep_v39 : after hostOps2 X (Proc.devRef .tc main_v39) = X (Proc.devRef .tc main_v39) := by
  after_results <;> rfl
theorem s2_keep_arg5 : after hostOps2 X (Proc.devRef .tc main_arg5) = X (Proc.devRef .tc main_arg5) := by
  after_results <;> rfl

/-! ## Layer 1: the scatter-add of the messages at the destinations -/

theorem s3_v51 (h48 : X (Proc.devRef .tc main_v48) = val_main_v52 (F := F) x0 x1 x2 x3 x7 x8)
    (h10 : X (Proc.devRef .tc main_v10) = val_main_v16 (F := F) x1) :
    after hostOps3 X (Proc.devRef .tc main_v51) = val_main_v55 (F := F) x0 x1 x2 x3 x7 x8 := by
  after_results
  rw [h48, h10]
  simp only [val_main_v55, val_main_v53, val_main_cst_9, val_main_v54]
  rfl
theorem s3_keep_v9 : after hostOps3 X (Proc.devRef .tc main_v9) = X (Proc.devRef .tc main_v9) := by
  after_results <;> rfl
theorem s3_keep_v10 : after hostOps3 X (Proc.devRef .tc main_v10) = X (Proc.devRef .tc main_v10) := by
  after_results <;> rfl
theorem s3_keep_v36 : after hostOps3 X (Proc.devRef .tc main_v36) = X (Proc.devRef .tc main_v36) := by
  after_results <;> rfl
theorem s3_keep_v38 : after hostOps3 X (Proc.devRef .tc main_v38) = X (Proc.devRef .tc main_v38) := by
  after_results <;> rfl
theorem s3_keep_v39 : after hostOps3 X (Proc.devRef .tc main_v39) = X (Proc.devRef .tc main_v39) := by
  after_results <;> rfl
theorem s3_keep_arg5 : after hostOps3 X (Proc.devRef .tc main_arg5) = X (Proc.devRef .tc main_arg5) := by
  after_results <;> rfl

/-! ## Layer 2: the gather -/

theorem s4_v59 (h52 : X (Proc.devRef .tc main_v52) = val_main_v59 (F := F) x0 x1 x2 x3 x4 x5 x7 x8)
    (h9 : X (Proc.devRef .tc main_v9) = val_main_v13 (F := F) x1) :
    after hostOps4 X (Proc.devRef .tc main_v59) = val_main_v81 (F := F) x0 x1 x2 x3 x4 x5 x7 x8 := by
  after_results
  rw [h52, h9]
  simp only [val_main_v81, val_main_v80, val_main_v79, val_main_v76, val_main_v75, val_main_c_14, val_main_v78, val_main_v77, val_main_c_15]
  rfl
theorem s4_keep_v10 : after hostOps4 X (Proc.devRef .tc main_v10) = X (Proc.devRef .tc main_v10) := by
  after_results <;> rfl
theorem s4_keep_v36 : after hostOps4 X (Proc.devRef .tc main_v36) = X (Proc.devRef .tc main_v36) := by
  after_results <;> rfl
theorem s4_keep_v39 : after hostOps4 X (Proc.devRef .tc main_v39) = X (Proc.devRef .tc main_v39) := by
  after_results <;> rfl

/-! ## Layer 2: the scatter-add -/

theorem s5_v63 (h60 : X (Proc.devRef .tc main_v60) = val_main_v84 (F := F) x0 x1 x2 x3 x4 x5 x7 x8)
    (h10 : X (Proc.devRef .tc main_v10) = val_main_v16 (F := F) x1) :
    after hostOps5 X (Proc.devRef .tc main_v63) = val_main_v87 (F := F) x0 x1 x2 x3 x4 x5 x7 x8 := by
  after_results
  rw [h60, h10]
  simp only [val_main_v87, val_main_v85, val_main_cst_16, val_main_v86]
  rfl
theorem s5_keep_v39 : after hostOps5 X (Proc.devRef .tc main_v39) = X (Proc.devRef .tc main_v39) := by
  after_results <;> rfl

end Cert.KernelIdeal.Stretch

end
-- ==== Proof.Spec.lean ====
/-
  The four whole-array functions the kernels of this program compute, at the ideal values, index by index over the
  literal shapes (N = 100000 nodes, E = 1700000 edges with the self loops, D = 128 features):

  • `encode x t f p`      (r, q) ↦ x(r, q) + cos (t(r) · f(q) + p(q))       the time-encoded features;
  • `affineMatmul a z w`  (r, q) ↦ ∑ₖ (a(r, k) + z(k)) · w(k, q)            a row bias added, then the D × D product;
  • `scaleRows g n`       (e, q) ↦ g(e, q) · n(e)                           each edge's message times its norm;
  • `addRow a b`          (r, q) ↦ a(r, q) + b(q)                           the closing bias.

  A column `[·, 1]` or a row `[1, ·]` operand is read at its one coordinate `0`.
-/
import Idealize.ShloMosaic.Lib.ValueIdx
import Idealize.ShloMosaic.PureOps.Ideal

open scoped BigOperators

noncomputable section

namespace Cert.GcnSpec

open Idealize.ShloMosaic Idealize.ShloMosaic.ValueIdx

/-- node features `[N, D]`, a node column `[N, 1]`, a feature row `[1, D]`, a weight `[D, D]`, edge messages `[E, D]`,
    an edge column `[E, 1]`. -/
abbrev NodeFeat : Type := FVec Ideal ⟨2, ![100000, 128]⟩ .f32
abbrev NodeCol : Type := FVec Ideal ⟨2, ![100000, 1]⟩ .f32
abbrev FeatRow : Type := FVec Ideal ⟨2, ![1, 128]⟩ .f32
abbrev Weight : Type := FVec Ideal ⟨2, ![128, 128]⟩ .f32
abbrev EdgeFeat : Type := FVec Ideal ⟨2, ![1700000, 128]⟩ .f32
abbrev EdgeCol : Type := FVec Ideal ⟨2, ![1700000, 1]⟩ .f32

/-- The time-encoded features: `x + cos (t · f + p)`, the time a column, frequency and phase rows. -/
def encode (x : NodeFeat) (t : NodeCol) (f p : FeatRow) : NodeFeat :=
  fun i => x i + Ideal.cos (t (ix2 (i 0) (0 : Fin 1)) * f (ix2 (0 : Fin 1) (i 1)) + p (ix2 (0 : Fin 1) (i 1)))

/-- A row bias added to every node's features, then the product with a `D × D` weight. -/
def affineMatmul (a : NodeFeat) (z : FeatRow) (w : Weight) : NodeFeat :=
  fun i => ∑ k : Fin 128, (a (ix2 (i 0) k) + z (ix2 (0 : Fin 1) k)) * w (ix2 k (i 1))

/-- Each edge's message scaled by that edge's normalisation. -/
def scaleRows (g : EdgeFeat) (n : EdgeCol) : EdgeFeat :=
  fun i => g i * n (ix2 (i 0) (0 : Fin 1))

/-- A row bias added to every node's features. -/
def addRow (a : NodeFeat) (b : FeatRow) : NodeFeat :=
  fun i => a i + b (ix2 (0 : Fin 1) (i 1))

end Cert.GcnSpec

end
-- ==== Proof.Bridges.lean ====
/-
  The kernel's whole-array functions against the reference's stages, at the ideal values, index by index. The kernel
  reads a per-node or per-edge scalar as a reshaped column `[·, 1]` and a per-feature vector as a reshaped row `[1, ·]`
  where the reference broadcasts them to the full array, and the two agree at every index; a matrix product reads as the
  same sum over the 128 features on both sides; adding the zero row changes nothing on the extended reals (`x + 0 = x`
  also at the infinities); and the reference's second edge norm is its first one recomputed.
-/
import proofs.«119969_j68659347194091_1_alg».proof.Proof.RefRead
import proofs.«119969_j68659347194091_1_alg».proof.Proof.Spec
import Idealize.ShloMosaic.Lib.ValueIdx
import Idealize.ShloMosaic.Lib.ValueLayout
import Idealize.ShloMosaic.Lib.Pipeline.Value
import Idealize.ShloMosaic.PureOps.Ideal.Laws

open scoped BigOperators
noncomputable section
namespace Cert.Bridge
open Idealize.ShloMosaic Idealize.ShloMosaic.ValueIdx Cert.ReferenceIdeal Cert.ReferenceIdeal.ReadP Cert.GcnSpec

/-- An `[a]` array cast to `[a, 1]` reads, at `(p, u)`, the operand at `p`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The second edge norm of the reference is the first one: the same operations over constants with the same literals. -/
private theorem v74_eq_v42 {F : FTy → Type} [FloatOps F] (x1 : (⟨S2x1600000, .i32⟩ : BufTy).Contents (Elt F)) :
    val_main_v74 (F := F) x1 = val_main_v42 (F := F) x1 := rfl

variable (x0 : FVec Ideal S100000x128 .f32) (x1 : IVec S2x1600000 32) (x2 : FVec Ideal S100000 .f32) (x3 : FVec Ideal S128x128 .f32)
  (x4 : FVec Ideal S128 .f32) (x5 : FVec Ideal S128x128 .f32) (x6 x7 x8 : FVec Ideal S128 .f32)

/-- x + cos(t·f + p): the kernel reads the time as a reshaped column and frequency, phase as reshaped rows; the reference broadcasts them. -/
theorem encode_eq (h1 : S100000.ShapeCasts S100000x1) (h2 : S128.ShapeCasts S1x128) :
    encode x0 (shapeCast S100000x1 x2 h1) (shapeCast S1x128 x7 h2) (shapeCast S1x128 x8 h2) = val_main_v9 (F := Ideal) x0 x2 x7 x8 := by
  funext i
  obtain ⟨r, q, rfl⟩ : ∃ (r : Fin 100000) (q : Fin 128), i = ix2 r q := ⟨i 0, i 1, eq_ix2 i⟩
  unfold encode
  rw [val_main_v9_apply, val_main_v8_apply, val_main_v7_apply, val_main_v4_apply, val_main_v2_apply, val_main_v0_apply,
    val_main_v3_apply, val_main_v1_apply, val_main_v6_apply, val_main_v5_apply]
  have e0 : idx_main_v0 (idx_main_v2 (ix2 r q)) = ix1 r := funext fun a => Fin.ext (by match a with | ⟨0, _⟩ => rfl)
  have e1 : idx_main_v1 (idx_main_v3 (ix2 r q)) = ix1 q := funext fun a => Fin.ext (by match a with | ⟨0, _⟩ => rfl)
  have e5 : idx_main_v5 (idx_main_v6 (ix2 r q)) = ix1 q := funext fun a => Fin.ext (by match a with | ⟨0, _⟩ => rfl)
  rw [e0, e1, e5, shapeCast_a_a1_apply, shapeCast_a_1a_apply, shapeCast_a_1a_apply]
  rfl

/-- layer 1's product: the kernel adds a zero row before the product, the reference is the plain dot_general. -/
theorem matmul_zero_eq (hb : S_.BroadcastsInDim S1x128 ![]) :
    affineMatmul (val_main_v9 (F := Ideal) x0 x2 x7 x8) (broadcastInDim S1x128 ![] hb (constant (F := Ideal) S_ .f32 0x00000000#32)) x3
      = val_main_v27 (F := Ideal) x0 x2 x3 x7 x8 := by
  funext i
  obtain ⟨r, q, rfl⟩ : ∃ (r : Fin 100000) (q : Fin 128), i = ix2 r q := ⟨i 0, i 1, eq_ix2 i⟩
  rw [val_main_v27_apply]
  generalize val_main_v9 (F := Ideal) x0 x2 x7 x8 = g
  unfold affineMatmul
  refine Finset.sum_congr rfl fun k _ => ?_
  have el : lidx_main_v27 (ix2 r q) k = ix2 r k := funext fun a => Fin.ext (by match a with | ⟨0, _⟩ => rfl | ⟨1, _⟩ => rfl)
  have er : ridx_main_v27 (ix2 r q) k = ix2 k q := funext fun a => Fin.ext (by match a with | ⟨0, _⟩ => rfl | ⟨1, _⟩ => rfl)
  have hz : broadcastInDim S1x128 ![] hb (constant (F := Ideal) S_ .f32 0x00000000#32) (ix2 (0 : Fin 1) k) = 0 := by
    rw [broadcastInDim_apply ![] hb _ _ ix0 (fun a => a.elim0), constant_apply, Ideal.ofBits_zero_f32]
  rw [el, er, hz, add_zero]

/-- layer 1's messages: gathered rows times the edge norm (a reshaped column in the kernel, two broadcasts in the reference). -/
theorem scale_eq (hc : S1700000.ShapeCasts S1700000x1) :
    scaleRows (val_main_v49 (F := Ideal) x0 x1 x2 x3 x7 x8) (shapeCast S1700000x1 (val_main_v42 (F := Ideal) x1) hc)
      = val_main_v52 (F := Ideal) x0 x1 x2 x3 x7 x8 := by
  funext i
  obtain ⟨e, q, rfl⟩ : ∃ (e : Fin 1700000) (q : Fin 128), i = ix2 e q := ⟨i 0, i 1, eq_ix2 i⟩
  rw [val_main_v52_apply, val_main_v51_apply, val_main_v50_apply]
  generalize val_main_v49 (F := Ideal) x0 x1 x2 x3 x7 x8 = g
  generalize val_main_v42 (F := Ideal) x1 = n
  unfold scaleRows
  have e0 : idx_main_v50 (idx_main_v51 (ix2 e q)) = ix1 e := funext fun a => Fin.ext (by match a with | ⟨0, _⟩ => rfl)
  rw [e0, shapeCast_a_a1_apply]
  rfl

/-- layer 2's product: the kernel adds the bias row b1 inside the launch, the reference adds it (v58) before its dot_general (v59). -/
theorem matmul_bias_eq (hc : S128.ShapeCasts S1x128) :
    affineMatmul (val_main_v55 (F := Ideal) x0 x1 x2 x3 x7 x8) (shapeCast S1x128 x4 hc) x5
      = val_main_v59 (F := Ideal) x0 x1 x2 x3 x4 x5 x7 x8 := by
  funext i
  obtain ⟨r, q, rfl⟩ : ∃ (r : Fin 100000) (q : Fin 128), i = ix2 r q := ⟨i 0, i 1, eq_ix2 i⟩
  rw [val_main_v59_apply]
  unfold affineMatmul
  refine Finset.sum_congr rfl fun k _ => ?_
  rw [val_main_v58_apply, val_main_v57_apply, val_main_v56_apply]
  generalize val_main_v55 (F := Ideal) x0 x1 x2 x3 x7 x8 = g
  have el : lidx_main_v59 (ix2 r q) k = ix2 r k := funext fun a => Fin.ext (by match a with | ⟨0, _⟩ => rfl | ⟨1, _⟩ => rfl)
  have er : ridx_main_v59 (ix2 r q) k = ix2 k q := funext fun a => Fin.ext (by match a with | ⟨0, _⟩ => rfl | ⟨1, _⟩ => rfl)
  have eb : idx_main_v56 (idx_main_v57 (ix2 r k)) = ix1 k := funext fun a => Fin.ext (by match a with | ⟨0, _⟩ => rfl)
  rw [el, er, eb, shapeCast_a_1a_apply]
  rfl

/-- layer 2's messages; the reference recomputes the edge norm (v74, the same operations as v42 over fresh constants). -/
theorem scale_eq' (hc : S1700000.ShapeCasts S1700000x1) :
    scaleRows (val_main_v81 (F := Ideal) x0 x1 x2 x3 x4 x5 x7 x8) (shapeCast S1700000x1 (val_main_v42 (F := Ideal) x1) hc)
      = val_main_v84 (F := Ideal) x0 x1 x2 x3 x4 x5 x7 x8 := by
  funext i
  obtain ⟨e, q, rfl⟩ : ∃ (e : Fin 1700000) (q : Fin 128), i = ix2 e q := ⟨i 0, i 1, eq_ix2 i⟩
  rw [val_main_v84_apply, val_main_v83_apply, val_main_v82_apply, v74_eq_v42]
  generalize val_main_v81 (F := Ideal) x0 x1 x2 x3 x4 x5 x7 x8 = g
  generalize val_main_v42 (F := Ideal) x1 = n
  unfold scaleRows
  have e0 : idx_main_v82 (idx_main_v83 (ix2 e q)) = ix1 e := funext fun a => Fin.ext (by match a with | ⟨0, _⟩ => rfl)
  rw [e0, shapeCast_a_a1_apply]
  rfl

/-- the closing bias b2. -/
theorem addRow_eq (hc : S128.ShapeCasts S1x128) :
    addRow (val_main_v87 (F := Ideal) x0 x1 x2 x3 x4 x5 x7 x8) (shapeCast S1x128 x6 hc)
      = val_main_v90 (F := Ideal) x0 x1 x2 x3 x4 x5 x6 x7 x8 := by
  funext i
  obtain ⟨r, q, rfl⟩ : ∃ (r : Fin 100000) (q : Fin 128), i = ix2 r q := ⟨i 0, i 1, eq_ix2 i⟩
  rw [val_main_v90_apply, val_main_v89_apply, val_main_v88_apply]
  generalize val_main_v87 (F := Ideal) x0 x1 x2 x3 x4 x5 x7 x8 = g
  unfold addRow
  have eb : idx_main_v88 (idx_main_v89 (ix2 r q)) = ix1 q := funext fun a => Fin.ext (by match a with | ⟨0, _⟩ => rfl)
  rw [eb, shapeCast_a_1a_apply]
  rfl

end Cert.Bridge
end
-- ==== Proof.LibKeepdims.lean ====
/-
  The column forms of a row reduction kept as a unit axis (`jnp.sum(x, axis=-1, keepdims=True)` inside a kernel), read
  at an index written with `ValueIdx.ix1` / `ix2`, for any extents `a`, `b`:

  • `shapeCast_a_a1_apply`: an `[a]` vector cast to the column `[a, 1]` reads, at `(p, u)`, the vector at `p`;
  • `broadcastTo_a1_ab_apply`: a column `[a, 1]` broadcast along the rows to `[a, b]` reads, at `(p, q)`, the column at
    `(p, 0)`;
  • `multiReduction_add_rows`: at the ideal values the lane sum of an `[a, b]` vector over its second axis, read at `p`,
    is `∑ k : Fin b, v (p, k)` (the accumulator is the neutral zero, which the sum drops).

  Together: a kernel's `x / (√(∑ x², keepdims) + ε)` at `(p, q)` mentions row `p` of `x` only.
-/
import Idealize.ShloMosaic.Lib.Pipeline.Value
import Idealize.ShloMosaic.Lib.ValueIdx
import Idealize.ShloMosaic.PureOps.Ideal.Laws

open scoped BigOperators

namespace Idealize.ShloMosaic.ValueIdx

open Idealize.ShloMosaic

variable {α : Type}

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the rows to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- At the ideal values the lane sum of an `[a, b]` vector over its second axis, read at row `p`, is the sum of the row. -/
theorem multiReduction_add_rows {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx
-- ==== Proof.Payloads.lean ====
/-
  The kernels' bodies read at an index, at the ideal values. Each body stores ONE value, a pure term of its loaded
  blocks; read at `(r, q)` of the block it is

  • time encode:    x(r, q) + cos (t(r) · f(q) + p(q))       (the column `t` and the rows `f`, `p` broadcast);
  • affine matmul:  ∑ₖ (a(r, k) + z(k)) · w(k, q)            (the bf16 roundings are the identity on ideal values and
                                                               the MXU accumulates into a zero block);
  • scale:          g(r, q) · n(r)                            (the column `n` broadcast along the rows);
  • bias add:       a(r, q) + b(q).
-/
import proofs.«119969_j68659347194091_1_alg».proof.Proof.Gen.KernelIdeal.Skeleton
import proofs.«119969_j68659347194091_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Payload

open Idealize.ShloMosaic Idealize.ShloMosaic.ValueIdx Cert.KernelIdeal Cert.KernelIdeal.Gen

/-- The bias-add body at `(r, q)`: the block's entry plus the bias row's entry of column `q`. -/
theorem biasAdd_apply (a : Vec Ideal S5000x128 .f32) (b : Vec Ideal S1x128 .f32) (r : Fin 5000) (q : Fin 128) :
    k5_pay1 (F := Ideal) a b (ix2 r q) = a (ix2 r q) + b (ix2 (0 : Fin 1) q) := by
  unfold k5_pay1
  simp only [addf_apply, shapeCast_self, broadcastTo_1b_ab_apply]

/-- The scale body at `(r, q)`: the message's entry times the norm column's entry of row `r`. -/
theorem scale_apply (g : Vec Ideal S10000x128 .f32) (n : Vec Ideal S10000x1 .f32) (r : Fin 10000) (q : Fin 128) :
    k2_pay1 (F := Ideal) g n (ix2 r q) = g (ix2 r q) * n (ix2 r (0 : Fin 1)) := by
  unfold k2_pay1
  simp only [mulf_apply, shapeCast_self, broadcastTo_a1_ab_apply]

/-- The second scale launch has the same body. -/
theorem scale_apply' (g : Vec Ideal S10000x128 .f32) (n : Vec Ideal S10000x1 .f32) (r : Fin 10000) (q : Fin 128) :
    k4_pay1 (F := Ideal) g n (ix2 r q) = g (ix2 r q) * n (ix2 r (0 : Fin 1)) := by
  unfold k4_pay1
  simp only [mulf_apply, shapeCast_self, broadcastTo_a1_ab_apply]

/-- The time-encode body at `(r, q)`. -/
theorem encode_apply (t : Vec Ideal S5000x1 .f32) (f p : Vec Ideal S1x128 .f32) (x : Vec Ideal S5000x128 .f32)
    (r : Fin 5000) (q : Fin 128) :
    k0_pay1 (F := Ideal) t f p x (ix2 r q)
      = x (ix2 r q) + Ideal.cos (t (ix2 r (0 : Fin 1)) * f (ix2 (0 : Fin 1) q) + p (ix2 (0 : Fin 1) q)) := by
  unfold k0_pay1
  simp only [addf_apply, mulf_apply, Idealize.ShloMosaic.cos, shapeCast_self, broadcastTo_1b_ab_apply, broadcastTo_a1_ab_apply,
    Ideal.cos_def]

end Cert.KernelIdeal.Payload

end
-- ==== Proof.Region0.lean ====
/-
  The time-encode launch (`x + cos (t · f + p)` over 20 blocks of 5000 nodes) as ONE function of the arrays the launch
  finds: block `t` of the result is rows `5000 t … 5000 t + 4999`, each point stores the encoding of its own blocks of
  the features and of the time column with the whole frequency and phase rows, and the 20 blocks tile the array; so the
  result array is `encode x t f p`.
-/
import proofs.«119969_j68659347194091_1_alg».proof.Proof.Gen.KernelIdeal.Frame
import proofs.«119969_j68659347194091_1_alg».proof.Proof.Spec
import proofs.«119969_j68659347194091_1_alg».proof.Proof.Payloads

set_option maxRecDepth 16384

noncomputable section

namespace Cert.KernelIdeal.Encode

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec

variable (V : (c : Dev nD) → (b : Ref sig .tc) → Buf (Elt Ideal) ((c : Thread nD τ).loc b))

/-- The four arrays the launch reads, at their literal types. -/
abbrev arrX (c : Dev nD) : NodeFeat := V c main_arg0
abbrev arrT (c : Dev nD) : NodeCol := V c main_v0
abbrev arrF (c : Dev nD) : FeatRow := V c main_v1
abbrev arrP (c : Dev nD) : FeatRow := V c main_v2

theorem hz : (![0, 0] : Fin 2 → Nat) = fun _ => 0 := funext fun a => by fin_cases a <;> rfl

/-- The printed index maps over the grid: at point `t` the block of the features, of the time column and of the result
    is block row `t`; the frequency and phase rows are always block `(0, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of `encode x t f p`: entry `(r, q)` of the block is entry `(5000 t + r, q)`
    of the array, which reads the time of node `5000 t + r` and the frequency and phase of feature `q`. -/
theorem flushed_eq (c : Dev nD) (t : Fin cfg0.N) :
    (dat0 V c).flushed 4 t
      = ((cfg0.win 4).blk t).view.read (Elt Ideal) (encode (V c main_arg0) (V c main_v0) (V c main_v1) (V c main_v2)) := by
  show (cfg0.win 4).cut (grid0.coords t) ((dat0 V c).after 4 t) = _
  rw [after0_4]
  unfold out0_4
  rw [View.canon_unit_zero hz]
  simp only [View.ld_unit_zero (S := S5000x128) hz, View.ld_unit_zero (S := S5000x1) hz, View.ld_unit_zero (S := S1x128) hz]
  obtain ⟨e0, e1, e2, e3, e4, e5, e6, e7, e8, e9⟩ := idx_facts t
  funext j
  obtain ⟨r, q, rfl⟩ : ∃ (r : Fin 5000) (q : Fin 128), j = ix2 r q := ⟨j 0, j 1, eq_ix2 j⟩
  have h0 : ((cfg0.win 0).blk t).view.emb (ix2 r q) = ((cfg0.win 4).blk t).view.emb (ix2 r q) := by
    funext a; apply Fin.ext
    match a with
    | ⟨0, _⟩ => show win0_0.index t (0 : Fin 2) * 5000 + 1 * r.val = win0_4.index t (0 : Fin 2) * 5000 + 1 * r.val; omega
    | ⟨1, _⟩ => show win0_0.index t (1 : Fin 2) * 128 + 1 * q.val = win0_4.index t (1 : Fin 2) * 128 + 1 * q.val; omega
  have h1 : ((cfg0.win 1).blk t).view.emb (ix2 r (0 : Fin 1))
      = ix2 ((((cfg0.win 4).blk t).view.emb (ix2 r q)) 0) (0 : Fin 1) := by
    funext a; apply Fin.ext
    match a with
    | ⟨0, _⟩ => show win0_1.index t (0 : Fin 2) * 5000 + 1 * r.val = win0_4.index t (0 : Fin 2) * 5000 + 1 * r.val; omega
    | ⟨1, _⟩ => show win0_1.index t (1 : Fin 2) * 1 + 1 * 0 = 0; omega
  have h2 : ((cfg0.win 2).blk t).view.emb (ix2 (0 : Fin 1) q)
      = ix2 (0 : Fin 1) ((((cfg0.win 4).blk t).view.emb (ix2 r q)) 1) := by
    funext a; apply Fin.ext
    match a with
    | ⟨0, _⟩ => show win0_2.index t (0 : Fin 2) * 1 + 1 * 0 = 0; omega
    | ⟨1, _⟩ => show win0_2.index t (1 : Fin 2) * 128 + 1 * q.val = win0_4.index t (1 : Fin 2) * 128 + 1 * q.val; omega
  have h3 : ((cfg0.win 3).blk t).view.emb (ix2 (0 : Fin 1) q)
      = ix2 (0 : Fin 1) ((((cfg0.win 4).blk t).view.emb (ix2 r q)) 1) := by
    funext a; apply Fin.ext
    match a with
    | ⟨0, _⟩ => show win0_3.index t (0 : Fin 2) * 1 + 1 * 0 = 0; omega
    | ⟨1, _⟩ => show win0_3.index t (1 : Fin 2) * 128 + 1 * q.val = win0_4.index t (1 : Fin 2) * 128 + 1 * q.val; omega
  refine (Payload.encode_apply _ _ _ _ r q).trans ?_
  show arrX V c (((cfg0.win 0).blk t).view.emb (ix2 r q))
      + Ideal.cos (arrT V c (((cfg0.win 1).blk t).view.emb (ix2 r (0 : Fin 1))) * arrF V c (((cfg0.win 2).blk t).view.emb (ix2 (0 : Fin 1) q))
        + arrP V c (((cfg0.win 3).blk t).view.emb (ix2 (0 : Fin 1) q)))
    = encode (arrX V c) (arrT V c) (arrF V c) (arrP V c) (((cfg0.win 4).blk t).view.emb (ix2 r q))
  rw [h0, h1, h2, h3]
  rfl

/-- An index of the array is in point `t`'s block iff each coordinate is in the block's range on its axis. -/
theorem mem_blk (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v3).slice (win0_4.rect t)).set ↔ _
  rw [View.set_slice_whole, Rect.mem_set_unit]
  exact Iff.rfl

/-- The 20 blocks of 5000 rows tile the array: row `i` lies in block `i / 5000`. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨e0, e1, e2, e3, e4, e5, e6, e7, e8, e9⟩ := idx_facts t
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The result array after the launch is `encode` of the four arrays the launch finds. -/
theorem final (c : Dev nD) :
    (dat0 V c).arrAt 4 cfg0.N = encode (V c main_arg0) (V c main_v0) (V c main_v1) (V c main_v2) :=
  (dat0 V c).arrAt_eq_of_cover 4 _ (fun t _ => flushed_eq V c t) cover

end Cert.KernelIdeal.Encode

end
-- ==== Proof.PayloadMatmul.lean ====
/-
  What the affine-matmul kernel body stores, read at an index, at the ideal values.

  The body adds a [1,128] row, broadcast down the 5000 rows, to a [5000,128] block, narrows both
  operands to bf16 (the identity at the ideal values) and contracts the block's columns with the
  rows of a [128,128] matrix into a zero accumulator. Its element at row `r`, column `q` is therefore
  `∑ k, (a r k + z 0 k) * w k q`.
-/
import proofs.«119969_j68659347194091_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

open scoped BigOperators
noncomputable section
namespace Cert.KernelIdeal.Payload
open Idealize.ShloMosaic Idealize.ShloMosaic.ValueIdx Cert.KernelIdeal Cert.KernelIdeal.Gen

/-! ## The operand indices of the contraction, one axis at a time

The contraction has one contracting axis (the left operand's axis 1 against the right operand's
axis 0), no batch axis, and keeps the left operand's axis 0 and the right operand's axis 1. -/

/-- The left operand's row is the output's row. -/
theorem affineMatmul_lhs_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column is the contraction index. -/
theorem affineMatmul_lhs_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c

/-- The right operand's row is the contraction index. -/
theorem affineMatmul_rhs_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c

/-- The right operand's column is the output's column. -/
theorem affineMatmul_rhs_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## The stored value at an index -/

/-- The first affine-matmul launch: the element at row `r`, column `q` is the sum over the
    contracted axis of (block plus broadcast row) times the matrix. -/
theorem affineMatmul_apply (a : Vec Ideal S5000x128 .f32) (z : Vec Ideal S1x128 .f32) (w : Vec Ideal S128x128 .f32) (r : Fin 5000) (q : Fin 128) :
    k1_pay1 (F := Ideal) a z w (ix2 r q) = ∑ k : Fin 128, (a (ix2 r k) + z (ix2 (0 : Fin 1) k)) * w (ix2 k q) := by
  unfold k1_pay1
  refine (Ideal.matmul_constant_zero_apply dot_S5000x128_S128x128_S5000x128_1_0_0_1_n_n none _ _ _).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q)
      ((contrEquiv1 dot_S5000x128_S128x128_S5000x128_1_0_0_1_n_n 128 rfl rfl).symm k) = ix2 r k :=
    funext fun ax => Fin.ext (by
      match ax with
      | ⟨0, _⟩ => exact affineMatmul_lhs_0 _ _
      | ⟨1, _⟩ => exact (affineMatmul_lhs_1 _ _).trans hk)
  have er : dot_S5000x128_S128x128_S5000x128_1_0_0_1_n_n.rhsIdx (ix2 r q)
      ((contrEquiv1 dot_S5000x128_S128x128_S5000x128_1_0_0_1_n_n 128 rfl rfl).symm k) = ix2 k q :=
    funext fun ax => Fin.ext (by
      match ax with
      | ⟨0, _⟩ => exact (affineMatmul_rhs_0 _ _).trans hk
      | ⟨1, _⟩ => exact affineMatmul_rhs_1 _ _)
  rw [el, er, truncf_apply, truncf_apply, addf_apply, shapeCast_self, shapeCast_self,
    broadcastTo_1b_ab_apply]

/-- The second affine-matmul launch stores the same expression of its own operands. -/
theorem affineMatmul_apply' (a : Vec Ideal S5000x128 .f32) (z : Vec Ideal S1x128 .f32) (w : Vec Ideal S128x128 .f32) (r : Fin 5000) (q : Fin 128) :
    k3_pay1 (F := Ideal) a z w (ix2 r q) = ∑ k : Fin 128, (a (ix2 r k) + z (ix2 (0 : Fin 1) k)) * w (ix2 k q) := by
  unfold k3_pay1
  refine (Ideal.matmul_constant_zero_apply dot_S5000x128_S128x128_S5000x128_1_0_0_1_n_n none _ _ _).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q)
      ((contrEquiv1 dot_S5000x128_S128x128_S5000x128_1_0_0_1_n_n 128 rfl rfl).symm k) = ix2 r k :=
    funext fun ax => Fin.ext (by
      match ax with
      | ⟨0, _⟩ => exact affineMatmul_lhs_0 _ _
      | ⟨1, _⟩ => exact (affineMatmul_lhs_1 _ _).trans hk)
  have er : dot_S5000x128_S128x128_S5000x128_1_0_0_1_n_n.rhsIdx (ix2 r q)
      ((contrEquiv1 dot_S5000x128_S128x128_S5000x128_1_0_0_1_n_n 128 rfl rfl).symm k) = ix2 k q :=
    funext fun ax => Fin.ext (by
      match ax with
      | ⟨0, _⟩ => exact (affineMatmul_rhs_0 _ _).trans hk
      | ⟨1, _⟩ => exact affineMatmul_rhs_1 _ _)
  rw [el, er, truncf_apply, truncf_apply, addf_apply, shapeCast_self, shapeCast_self,
    broadcastTo_1b_ab_apply]

end Cert.KernelIdeal.Payload
end
-- ==== Proof.Region1.lean ====
/-
  The first affine-matmul launch (a bias row added, then the 128 × 128 product, over 20 blocks of 5000 rows) as ONE
  function of the arrays the launch finds: block `t` of the result is rows `5000 t … 5000 t + 4999`, each point stores
  the product of its own block of the features (plus the whole bias row) with the whole weight, and the 20 blocks tile
  the array; so the result array is `affineMatmul a z w`.
-/
import proofs.«119969_j68659347194091_1_alg».proof.Proof.Gen.KernelIdeal.Frame
import proofs.«119969_j68659347194091_1_alg».proof.Proof.Spec
import proofs.«119969_j68659347194091_1_alg».proof.Proof.PayloadMatmul

open scoped BigOperators
set_option maxRecDepth 16384

noncomputable section

namespace Cert.KernelIdeal.Matmul1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec

variable (V : (c : Dev nD) → (b : Ref sig .tc) → Buf (Elt Ideal) ((c : Thread nD τ).loc b))

/-- The three arrays the launch reads, at their literal types. -/
abbrev arrA (c : Dev nD) : NodeFeat := V c main_v3
abbrev arrZ (c : Dev nD) : FeatRow := V c main_v37
abbrev arrW (c : Dev nD) : Weight := V c main_arg3

theorem hz : (![0, 0] : Fin 2 → Nat) = fun _ => 0 := funext fun a => by fin_cases a <;> rfl

/-- The printed index maps over the grid: at point `t` the block of the features and of the result is block row `t`;
    the bias row and the weight are always block `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `affineMatmul a z w`: entry `(r, q)` of the block is entry
    `(5000 t + r, q)` of the array, a sum over the feature axis that reads row `5000 t + r` of `a`, the bias row and
    column `q` of the weight. -/
theorem flushed_eq (c : Dev nD) (t : Fin cfg1.N) :
    (dat1 V c).flushed 3 t
      = ((cfg1.win 3).blk t).view.read (Elt Ideal) (affineMatmul (V c main_v3) (V c main_v37) (V c main_arg3)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x128) hz]
  obtain ⟨e0, e1, e2, e3, e4, e5, e6, e7⟩ := idx_facts t
  funext j
  obtain ⟨r, q, rfl⟩ : ∃ (r : Fin 5000) (q : Fin 128), j = ix2 r q := ⟨j 0, j 1, eq_ix2 j⟩
  have h0 : ∀ k : Fin 128, ((cfg1.win 0).blk t).view.emb (ix2 r k)
      = ix2 ((((cfg1.win 3).blk t).view.emb (ix2 r q)) 0) k := fun k => by
    funext a; apply Fin.ext
    match a with
    | ⟨0, _⟩ => show win1_0.index t (0 : Fin 2) * 5000 + 1 * r.val = win1_3.index t (0 : Fin 2) * 5000 + 1 * r.val; omega
    | ⟨1, _⟩ => show win1_0.index t (1 : Fin 2) * 128 + 1 * k.val = k.val; omega
  have h1 : ∀ k : Fin 128, ((cfg1.win 1).blk t).view.emb (ix2 (0 : Fin 1) k) = ix2 (0 : Fin 1) k := fun k => by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ∀ k : Fin 128, ((cfg1.win 2).blk t).view.emb (ix2 k q)
      = ix2 k ((((cfg1.win 3).blk t).view.emb (ix2 r q)) 1) := fun k => by
    funext a; apply Fin.ext
    match a with
    | ⟨0, _⟩ => show win1_2.index t (0 : Fin 2) * 128 + 1 * k.val = k.val; omega
    | ⟨1, _⟩ => show win1_2.index t (1 : Fin 2) * 128 + 1 * q.val = win1_3.index t (1 : Fin 2) * 128 + 1 * q.val; omega
  refine (Payload.affineMatmul_apply _ _ _ r q).trans ?_
  show ∑ k : Fin 128, (arrA V c (((cfg1.win 0).blk t).view.emb (ix2 r k))
        + arrZ V c (((cfg1.win 1).blk t).view.emb (ix2 (0 : Fin 1) k))) * arrW V c (((cfg1.win 2).blk t).view.emb (ix2 k q))
    = affineMatmul (arrA V c) (arrZ V c) (arrW V c) (((cfg1.win 3).blk t).view.emb (ix2 r q))
  unfold affineMatmul
  refine Finset.sum_congr rfl fun k _ => ?_
  rw [h0 k, h1 k, h2 k]
  rfl

/-- An index of the array is in point `t`'s block iff each coordinate is in the block's range on its axis. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v40).slice (win1_3.rect t)).set ↔ _
  rw [View.set_slice_whole, Rect.mem_set_unit]
  exact Iff.rfl

/-- The 20 blocks of 5000 rows tile the array: row `i` lies in block `i / 5000`. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨e0, e1, e2, e3, e4, e5, e6, e7⟩ := idx_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The result array after the launch is `affineMatmul` of the three arrays the launch finds. -/
theorem final (c : Dev nD) :
    (dat1 V c).arrAt 3 cfg1.N = affineMatmul (V c main_v3) (V c main_v37) (V c main_arg3) :=
  (dat1 V c).arrAt_eq_of_cover 3 _ (fun t _ => flushed_eq V c t) cover

end Cert.KernelIdeal.Matmul1

end
-- ==== Proof.Region2.lean ====
/-
  The first scale launch (each gathered message times its edge's norm, over 170 blocks of 10000 edges) as ONE
  function of the arrays the launch finds: block `t` of the result is rows `10000 t … 10000 t + 9999`, each point
  stores `g · n` of its own blocks of the messages and of the norm column, and the 170 blocks tile the array; so the
  result array is `scaleRows g n`.
-/
import proofs.«119969_j68659347194091_1_alg».proof.Proof.Gen.KernelIdeal.Frame
import proofs.«119969_j68659347194091_1_alg».proof.Proof.Spec
import proofs.«119969_j68659347194091_1_alg».proof.Proof.Payloads

set_option maxRecDepth 16384

noncomputable section

namespace Cert.KernelIdeal.Scale1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec

variable (V : (c : Dev nD) → (b : Ref sig .tc) → Buf (Elt Ideal) ((c : Thread nD τ).loc b))

/-- The two arrays the launch reads, at their literal types. -/
abbrev arrG (c : Dev nD) : EdgeFeat := V c main_v47
abbrev arrN (c : Dev nD) : EdgeCol := V c main_v36

theorem hz : (![0, 0] : Fin 2 → Nat) = fun _ => 0 := funext fun a => by fin_cases a <;> rfl

/-- The printed index maps over the grid: at point `t` the block of the messages, of the norm column and of the result
    is block row `t`. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `scaleRows g n`: entry `(r, q)` of the block is entry `(10000 t + r, q)`
    of the array, and the body multiplies it by the norm of edge `10000 t + r`. -/
theorem flushed_eq (c : Dev nD) (t : Fin cfg2.N) :
    (dat2 V c).flushed 2 t = ((cfg2.win 2).blk t).view.read (Elt Ideal) (scaleRows (V c main_v47) (V c main_v36)) := by
  show (cfg2.win 2).cut (grid2.coords t) ((dat2 V c).after 2 t) = _
  rw [after2_2]
  unfold out2_2
  rw [View.canon_unit_zero hz]
  simp only [View.ld_unit_zero (S := S10000x128) hz, View.ld_unit_zero (S := S10000x1) hz]
  obtain ⟨e0, e1, e2, e3, e4, e5⟩ := idx_facts t
  funext j
  obtain ⟨r, q, rfl⟩ : ∃ (r : Fin 10000) (q : Fin 128), j = ix2 r q := ⟨j 0, j 1, eq_ix2 j⟩
  have h0 : ((cfg2.win 0).blk t).view.emb (ix2 r q) = ((cfg2.win 2).blk t).view.emb (ix2 r q) := by
    funext a; apply Fin.ext
    match a with
    | ⟨0, _⟩ => show win2_0.index t (0 : Fin 2) * 10000 + 1 * r.val = win2_2.index t (0 : Fin 2) * 10000 + 1 * r.val; omega
    | ⟨1, _⟩ => show win2_0.index t (1 : Fin 2) * 128 + 1 * q.val = win2_2.index t (1 : Fin 2) * 128 + 1 * q.val; omega
  have h1 : ((cfg2.win 1).blk t).view.emb (ix2 r (0 : Fin 1))
      = ix2 ((((cfg2.win 2).blk t).view.emb (ix2 r q)) 0) (0 : Fin 1) := by
    funext a; apply Fin.ext
    match a with
    | ⟨0, _⟩ => show win2_1.index t (0 : Fin 2) * 10000 + 1 * r.val = win2_2.index t (0 : Fin 2) * 10000 + 1 * r.val; omega
    | ⟨1, _⟩ => show win2_1.index t (1 : Fin 2) * 1 + 1 * 0 = 0; omega
  refine (Payload.scale_apply _ _ r q).trans ?_
  show arrG V c (((cfg2.win 0).blk t).view.emb (ix2 r q)) * arrN V c (((cfg2.win 1).blk t).view.emb (ix2 r (0 : Fin 1)))
    = scaleRows (arrG V c) (arrN V c) (((cfg2.win 2).blk t).view.emb (ix2 r q))
  rw [h0, h1]
  rfl

/-- An index of the array is in point `t`'s block iff each coordinate is in the block's range on its axis. -/
theorem mem_blk (t : Fin cfg2.N) (i : S1700000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v48).slice (win2_2.rect t)).set ↔ _
  rw [View.set_slice_whole, Rect.mem_set_unit]
  exact Iff.rfl

/-- The 170 blocks of 10000 rows tile the array: row `i` lies in block `i / 10000`. -/
theorem cover (i : S1700000x128.Idx) :
    ∃ t : Fin cfg2.N, (cfg2.win 2).flush t = true ∧ i ∈ ((cfg2.win 2).blk t).view.set := by
  have hi0 : (i 0).val < 1700000 := (i 0).isLt
  have hi1 : (i 1).val < 128 := (i 1).isLt
  obtain ⟨t, ht⟩ : ∃ t : Fin cfg2.N, t.val = (i 0).val / 10000 :=
    ⟨⟨(i 0).val / 10000, by rw [show cfg2.N = 170 from N_2]; omega⟩, rfl⟩
  obtain ⟨e0, e1, e2, e3, e4, e5⟩ := idx_facts t
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The result array after the launch is `scaleRows` of the two arrays the launch finds. -/
theorem final (c : Dev nD) : (dat2 V c).arrAt 2 cfg2.N = scaleRows (V c main_v47) (V c main_v36) :=
  (dat2 V c).arrAt_eq_of_cover 2 _ (fun t _ => flushed_eq V c t) cover

end Cert.KernelIdeal.Scale1

end
-- ==== Proof.Region3.lean ====
/-
  The second affine-matmul launch (a bias row added, then the 128 × 128 product, over 20 blocks of 5000 rows) as ONE
  function of the arrays the launch finds: block `t` of the result is rows `5000 t … 5000 t + 4999`, each point stores
  the product of its own block of the features (plus the whole bias row) with the whole weight, and the 20 blocks tile
  the array; so the result array is `affineMatmul a z w`.
-/
import proofs.«119969_j68659347194091_1_alg».proof.Proof.Gen.KernelIdeal.Frame
import proofs.«119969_j68659347194091_1_alg».proof.Proof.Spec
import proofs.«119969_j68659347194091_1_alg».proof.Proof.PayloadMatmul

open scoped BigOperators
set_option maxRecDepth 16384

noncomputable section

namespace Cert.KernelIdeal.Matmul2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec

variable (V : (c : Dev nD) → (b : Ref sig .tc) → Buf (Elt Ideal) ((c : Thread nD τ).loc b))

/-- The three arrays the launch reads, at their literal types. -/
abbrev arrA (c : Dev nD) : NodeFeat := V c main_v51
abbrev arrZ (c : Dev nD) : FeatRow := V c main_v38
abbrev arrW (c : Dev nD) : Weight := V c main_arg5

theorem hz : (![0, 0] : Fin 2 → Nat) = fun _ => 0 := funext fun a => by fin_cases a <;> rfl

/-- The printed index maps over the grid: at point `t` the block of the features and of the result is block row `t`;
    the bias row and the weight are always block `(0, 0)`. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of `affineMatmul a z w`: entry `(r, q)` of the block is entry
    `(5000 t + r, q)` of the array, a sum over the feature axis that reads row `5000 t + r` of `a`, the bias row and
    column `q` of the weight. -/
theorem flushed_eq (c : Dev nD) (t : Fin cfg3.N) :
    (dat3 V c).flushed 3 t
      = ((cfg3.win 3).blk t).view.read (Elt Ideal) (affineMatmul (V c main_v51) (V c main_v38) (V c main_arg5)) := by
  show (cfg3.win 3).cut (grid3.coords t) ((dat3 V c).after 3 t) = _
  rw [after3_3]
  unfold out3_3
  rw [View.canon_unit_zero hz]
  simp only [View.ld_unit_zero (S := S5000x128) hz, View.ld_unit_zero (S := S1x128) hz, View.ld_unit_zero (S := S128x128) hz]
  obtain ⟨e0, e1, e2, e3, e4, e5, e6, e7⟩ := idx_facts t
  funext j
  obtain ⟨r, q, rfl⟩ : ∃ (r : Fin 5000) (q : Fin 128), j = ix2 r q := ⟨j 0, j 1, eq_ix2 j⟩
  have h0 : ∀ k : Fin 128, ((cfg3.win 0).blk t).view.emb (ix2 r k)
      = ix2 ((((cfg3.win 3).blk t).view.emb (ix2 r q)) 0) k := fun k => by
    funext a; apply Fin.ext
    match a with
    | ⟨0, _⟩ => show win3_0.index t (0 : Fin 2) * 5000 + 1 * r.val = win3_3.index t (0 : Fin 2) * 5000 + 1 * r.val; omega
    | ⟨1, _⟩ => show win3_0.index t (1 : Fin 2) * 128 + 1 * k.val = k.val; omega
  have h1 : ∀ k : Fin 128, ((cfg3.win 1).blk t).view.emb (ix2 (0 : Fin 1) k) = ix2 (0 : Fin 1) k := fun k => by
    funext a; apply Fin.ext
    match a with
    | ⟨0, _⟩ => show win3_1.index t (0 : Fin 2) * 1 + 1 * 0 = 0; omega
    | ⟨1, _⟩ => show win3_1.index t (1 : Fin 2) * 128 + 1 * k.val = k.val; omega
  have h2 : ∀ k : Fin 128, ((cfg3.win 2).blk t).view.emb (ix2 k q)
      = ix2 k ((((cfg3.win 3).blk t).view.emb (ix2 r q)) 1) := fun k => by
    funext a; apply Fin.ext
    match a with
    | ⟨0, _⟩ => show win3_2.index t (0 : Fin 2) * 128 + 1 * k.val = k.val; omega
    | ⟨1, _⟩ => show win3_2.index t (1 : Fin 2) * 128 + 1 * q.val = win3_3.index t (1 : Fin 2) * 128 + 1 * q.val; omega
  refine (Payload.affineMatmul_apply' _ _ _ r q).trans ?_
  show ∑ k : Fin 128, (arrA V c (((cfg3.win 0).blk t).view.emb (ix2 r k))
        + arrZ V c (((cfg3.win 1).blk t).view.emb (ix2 (0 : Fin 1) k))) * arrW V c (((cfg3.win 2).blk t).view.emb (ix2 k q))
    = affineMatmul (arrA V c) (arrZ V c) (arrW V c) (((cfg3.win 3).blk t).view.emb (ix2 r q))
  unfold affineMatmul
  refine Finset.sum_congr rfl fun k _ => ?_
  rw [h0 k, h1 k, h2 k]
  rfl

/-- An index of the array is in point `t`'s block iff each coordinate is in the block's range on its axis. -/
theorem mem_blk (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v52).slice (win3_3.rect t)).set ↔ _
  rw [View.set_slice_whole, Rect.mem_set_unit]
  exact Iff.rfl

/-- The 20 blocks of 5000 rows tile the array: row `i` lies in block `i / 5000`. -/
theorem cover (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ : ∃ t : Fin cfg3.N, t.val = (i 0).val / 5000 :=
    ⟨⟨(i 0).val / 5000, by rw [show cfg3.N = 20 from N_3]; omega⟩, rfl⟩
  obtain ⟨e0, e1, e2, e3, e4, e5, e6, e7⟩ := idx_facts t
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The result array after the launch is `affineMatmul` of the three arrays the launch finds. -/
theorem final (c : Dev nD) :
    (dat3 V c).arrAt 3 cfg3.N = affineMatmul (V c main_v51) (V c main_v38) (V c main_arg5) :=
  (dat3 V c).arrAt_eq_of_cover 3 _ (fun t _ => flushed_eq V c t) cover

end Cert.KernelIdeal.Matmul2

end
-- ==== Proof.Region4.lean ====
/-
  The second scale launch (each gathered message times its edge's norm, over 170 blocks of 10000 edges) as ONE
  function of the arrays the launch finds: block `t` of the result is rows `10000 t … 10000 t + 9999`, each point
  stores `g · n` of its own blocks of the messages and of the norm column, and the 170 blocks tile the array; so the
  result array is `scaleRows g n`.
-/
import proofs.«119969_j68659347194091_1_alg».proof.Proof.Gen.KernelIdeal.Frame
import proofs.«119969_j68659347194091_1_alg».proof.Proof.Spec
import proofs.«119969_j68659347194091_1_alg».proof.Proof.Payloads

set_option maxRecDepth 16384

noncomputable section

namespace Cert.KernelIdeal.Scale2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec

variable (V : (c : Dev nD) → (b : Ref sig .tc) → Buf (Elt Ideal) ((c : Thread nD τ).loc b))

/-- The two arrays the launch reads, at their literal types. -/
abbrev arrG (c : Dev nD) : EdgeFeat := V c main_v59
abbrev arrN (c : Dev nD) : EdgeCol := V c main_v36

theorem hz : (![0, 0] : Fin 2 → Nat) = fun _ => 0 := funext fun a => by fin_cases a <;> rfl

/-- The printed index maps over the grid: at point `t` the block of the messages, of the norm column and of the result
    is block row `t`. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of `scaleRows g n`: entry `(r, q)` of the block is entry `(10000 t + r, q)`
    of the array, and the body multiplies it by the norm of edge `10000 t + r`. -/
theorem flushed_eq (c : Dev nD) (t : Fin cfg4.N) :
    (dat4 V c).flushed 2 t = ((cfg4.win 2).blk t).view.read (Elt Ideal) (scaleRows (V c main_v59) (V c main_v36)) := by
  show (cfg4.win 2).cut (grid4.coords t) ((dat4 V c).after 2 t) = _
  rw [after4_2]
  unfold out4_2
  rw [View.canon_unit_zero hz]
  simp only [View.ld_unit_zero (S := S10000x128) hz, View.ld_unit_zero (S := S10000x1) hz]
  obtain ⟨e0, e1, e2, e3, e4, e5⟩ := idx_facts t
  funext j
  obtain ⟨r, q, rfl⟩ : ∃ (r : Fin 10000) (q : Fin 128), j = ix2 r q := ⟨j 0, j 1, eq_ix2 j⟩
  have h0 : ((cfg4.win 0).blk t).view.emb (ix2 r q) = ((cfg4.win 2).blk t).view.emb (ix2 r q) := by
    funext a; apply Fin.ext
    match a with
    | ⟨0, _⟩ => show win4_0.index t (0 : Fin 2) * 10000 + 1 * r.val = win4_2.index t (0 : Fin 2) * 10000 + 1 * r.val; omega
    | ⟨1, _⟩ => show win4_0.index t (1 : Fin 2) * 128 + 1 * q.val = win4_2.index t (1 : Fin 2) * 128 + 1 * q.val; omega
  have h1 : ((cfg4.win 1).blk t).view.emb (ix2 r (0 : Fin 1))
      = ix2 ((((cfg4.win 2).blk t).view.emb (ix2 r q)) 0) (0 : Fin 1) := by
    funext a; apply Fin.ext
    match a with
    | ⟨0, _⟩ => show win4_1.index t (0 : Fin 2) * 10000 + 1 * r.val = win4_2.index t (0 : Fin 2) * 10000 + 1 * r.val; omega
    | ⟨1, _⟩ => show win4_1.index t (1 : Fin 2) * 1 + 1 * 0 = 0; omega
  refine (Payload.scale_apply' _ _ r q).trans ?_
  show arrG V c (((cfg4.win 0).blk t).view.emb (ix2 r q)) * arrN V c (((cfg4.win 1).blk t).view.emb (ix2 r (0 : Fin 1)))
    = scaleRows (arrG V c) (arrN V c) (((cfg4.win 2).blk t).view.emb (ix2 r q))
  rw [h0, h1]
  rfl

/-- An index of the array is in point `t`'s block iff each coordinate is in the block's range on its axis. -/
theorem mem_blk (t : Fin cfg4.N) (i : S1700000x128.Idx) :
    i ∈ ((cfg4.win 2).blk t).view.set ↔ ∀ a : Fin 2, win4_2.index t a * S10000x128.size a ≤ (i a).val
      ∧ (i a).val < win4_2.index t a * S10000x128.size a + S10000x128.size a := by
  show i ∈ ((View.whole main_v60).slice (win4_2.rect t)).set ↔ _
  rw [View.set_slice_whole, Rect.mem_set_unit]
  exact Iff.rfl

/-- The 170 blocks of 10000 rows tile the array: row `i` lies in block `i / 10000`. -/
theorem cover (i : S1700000x128.Idx) :
    ∃ t : Fin cfg4.N, (cfg4.win 2).flush t = true ∧ i ∈ ((cfg4.win 2).blk t).view.set := by
  have hi0 : (i 0).val < 1700000 := (i 0).isLt
  have hi1 : (i 1).val < 128 := (i 1).isLt
  obtain ⟨t, ht⟩ : ∃ t : Fin cfg4.N, t.val = (i 0).val / 10000 :=
    ⟨⟨(i 0).val / 10000, by rw [show cfg4.N = 170 from N_4]; omega⟩, rfl⟩
  obtain ⟨e0, e1, e2, e3, e4, e5⟩ := idx_facts t
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 128 ≤ (i 1).val ∧ (i 1).val < win4_2.index t (1 : Fin 2) * 128 + 128; omega

/-- The result array after the launch is `scaleRows` of the two arrays the launch finds. -/
theorem final (c : Dev nD) : (dat4 V c).arrAt 2 cfg4.N = scaleRows (V c main_v59) (V c main_v36) :=
  (dat4 V c).arrAt_eq_of_cover 2 _ (fun t _ => flushed_eq V c t) cover

end Cert.KernelIdeal.Scale2

end
-- ==== Proof.Region5.lean ====
/-
  The closing launch (the bias add over 20 blocks of 5000 rows) as ONE function of the arrays the launch finds:
  block `t` of the result is rows `5000 t … 5000 t + 4999`, each point stores `a + b` of its own block of `a` and of
  the whole bias row, and the 20 blocks tile the array; so the result array is `addRow a b`.
-/
import proofs.«119969_j68659347194091_1_alg».proof.Proof.Gen.KernelIdeal.Frame
import proofs.«119969_j68659347194091_1_alg».proof.Proof.Spec
import proofs.«119969_j68659347194091_1_alg».proof.Proof.Payloads

set_option maxRecDepth 16384

noncomputable section

namespace Cert.KernelIdeal.BiasAdd

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec

variable (V : (c : Dev nD) → (b : Ref sig .tc) → Buf (Elt Ideal) ((c : Thread nD τ).loc b))

/-- The two arrays the launch reads, at their literal types. -/
abbrev arrA (c : Dev nD) : NodeFeat := V c main_v63
abbrev arrB (c : Dev nD) : FeatRow := V c main_v39

theorem hz : (![0, 0] : Fin 2 → Nat) = fun _ => 0 := funext fun a => by fin_cases a <;> rfl

/-- The printed index maps over the grid: at point `t` the block of `a` and of the result is block row `t`; the bias
    row is always block `(0, 0)`. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of `addRow a b`: entry `(r, q)` of the block is entry `(5000 t + r, q)` of
    the array, and the body adds to it the bias row's entry `q`. -/
theorem flushed_eq (c : Dev nD) (t : Fin cfg5.N) :
    (dat5 V c).flushed 2 t = ((cfg5.win 2).blk t).view.read (Elt Ideal) (addRow (V c main_v63) (V c main_v39)) := by
  show (cfg5.win 2).cut (grid5.coords t) ((dat5 V c).after 2 t) = _
  rw [after5_2]
  unfold out5_2
  rw [View.canon_unit_zero hz]
  simp only [View.ld_unit_zero (S := S5000x128) hz, View.ld_unit_zero (S := S1x128) hz]
  obtain ⟨e0, e1, e2, e3, e4, e5⟩ := idx_facts t
  funext j
  obtain ⟨r, q, rfl⟩ : ∃ (r : Fin 5000) (q : Fin 128), j = ix2 r q := ⟨j 0, j 1, eq_ix2 j⟩
  have h0 : ((cfg5.win 0).blk t).view.emb (ix2 r q) = ((cfg5.win 2).blk t).view.emb (ix2 r q) := by
    funext a; apply Fin.ext
    match a with
    | ⟨0, _⟩ => show win5_0.index t (0 : Fin 2) * 5000 + 1 * r.val = win5_2.index t (0 : Fin 2) * 5000 + 1 * r.val; omega
    | ⟨1, _⟩ => show win5_0.index t (1 : Fin 2) * 128 + 1 * q.val = win5_2.index t (1 : Fin 2) * 128 + 1 * q.val; omega
  have h1 : ((cfg5.win 1).blk t).view.emb (ix2 (0 : Fin 1) q)
      = ix2 (0 : Fin 1) ((((cfg5.win 2).blk t).view.emb (ix2 r q)) 1) := by
    funext a; apply Fin.ext
    match a with
    | ⟨0, _⟩ => show win5_1.index t (0 : Fin 2) * 1 + 1 * 0 = 0; omega
    | ⟨1, _⟩ => show win5_1.index t (1 : Fin 2) * 128 + 1 * q.val = win5_2.index t (1 : Fin 2) * 128 + 1 * q.val; omega
  refine (Payload.biasAdd_apply _ _ r q).trans ?_
  show arrA V c (((cfg5.win 0).blk t).view.emb (ix2 r q)) + arrB V c (((cfg5.win 1).blk t).view.emb (ix2 (0 : Fin 1) q))
    = addRow (arrA V c) (arrB V c) (((cfg5.win 2).blk t).view.emb (ix2 r q))
  rw [h0, h1]
  rfl

/-- An index of the array is in point `t`'s block iff each coordinate is in the block's range on its axis. -/
theorem mem_blk (t : Fin cfg5.N) (i : S100000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v64).slice (win5_2.rect t)).set ↔ _
  rw [View.set_slice_whole, Rect.mem_set_unit]
  exact Iff.rfl

/-- The 20 blocks of 5000 rows tile the array: row `i` lies in block `i / 5000`. -/
theorem cover (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  obtain ⟨t, ht⟩ : ∃ t : Fin cfg5.N, t.val = (i 0).val / 5000 :=
    ⟨⟨(i 0).val / 5000, by rw [show cfg5.N = 20 from N_5]; omega⟩, rfl⟩
  obtain ⟨e0, e1, e2, e3, e4, e5⟩ := idx_facts t
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The result array after the launch is `addRow` of the two arrays the launch finds. -/
theorem final (c : Dev nD) : (dat5 V c).arrAt 2 cfg5.N = addRow (V c main_v63) (V c main_v39) :=
  (dat5 V c).arrAt_eq_of_cover 2 _ (fun t _ => flushed_eq V c t) cover

end Cert.KernelIdeal.BiasAdd

end
-- ==== Proof.Chain.lean ====
/-
  The kernel program's buffers at each boundary between its host stretches and its launches, as the reference's stages
  of the launch contents `x0 … x8` of the nine arguments: boundary by boundary, a host stretch by the operations it
  applies (the same as the reference's), a launch by the whole-array function it computes and that function's reading as
  a reference stage. The last boundary's result buffer holds the reference's result stage `v90`.
-/
import proofs.«119969_j68659347194091_1_alg».proof.Proof.Gen.KernelIdeal.Frame
import proofs.«119969_j68659347194091_1_alg».proof.Proof.HostStretches
import proofs.«119969_j68659347194091_1_alg».proof.Proof.Bridges
import proofs.«119969_j68659347194091_1_alg».proof.Proof.Region0
import proofs.«119969_j68659347194091_1_alg».proof.Proof.Region1
import proofs.«119969_j68659347194091_1_alg».proof.Proof.Region2
import proofs.«119969_j68659347194091_1_alg».proof.Proof.Region3
import proofs.«119969_j68659347194091_1_alg».proof.Proof.Region4
import proofs.«119969_j68659347194091_1_alg».proof.Proof.Region5

set_option maxRecDepth 16384

noncomputable section

namespace Cert.KernelIdeal.Chain

open Idealize.ShloMosaic Idealize.ShloMosaic.TcCoe Idealize.ShloMosaic.StableHlo Idealize.SL.Sem
open Cert.KernelIdeal Cert.KernelIdeal.Gen Cert.GcnSpec
open Cert.ReferenceIdeal.ReadP

variable (m : (ℓ : Loc nD τ sig) → Buf (Elt Ideal) ℓ) (ρ : Dev nD → PrngReg) (c : Dev nD)

/-! ## The arguments' launch contents -/

abbrev x0 : (⟨Cert.ReferenceIdeal.S100000x128, .f32⟩ : BufTy).Contents (Elt Ideal) := m ((c : Thread nD τ).loc main_arg0)
abbrev x1 : (⟨Cert.ReferenceIdeal.S2x1600000, .i32⟩ : BufTy).Contents (Elt Ideal) := m ((c : Thread nD τ).loc main_arg1)
abbrev x2 : (⟨Cert.ReferenceIdeal.S100000, .f32⟩ : BufTy).Contents (Elt Ideal) := m ((c : Thread nD τ).loc main_arg2)
abbrev x3 : (⟨Cert.ReferenceIdeal.S128x128, .f32⟩ : BufTy).Contents (Elt Ideal) := m ((c : Thread nD τ).loc main_arg3)
abbrev x4 : (⟨Cert.ReferenceIdeal.S128, .f32⟩ : BufTy).Contents (Elt Ideal) := m ((c : Thread nD τ).loc main_arg4)
abbrev x5 : (⟨Cert.ReferenceIdeal.S128x128, .f32⟩ : BufTy).Contents (Elt Ideal) := m ((c : Thread nD τ).loc main_arg5)
abbrev x6 : (⟨Cert.ReferenceIdeal.S128, .f32⟩ : BufTy).Contents (Elt Ideal) := m ((c : Thread nD τ).loc main_arg6)
abbrev x7 : (⟨Cert.ReferenceIdeal.S128, .f32⟩ : BufTy).Contents (Elt Ideal) := m ((c : Thread nD τ).loc main_arg7)
abbrev x8 : (⟨Cert.ReferenceIdeal.S128, .f32⟩ : BufTy).Contents (Elt Ideal) := m ((c : Thread nD τ).loc main_arg8)

/-! ## Boundary 1: after the reshapes of time, frequency and phase -/

theorem t1_arg0 : W1 m ρ c (Proc.devRef .tc main_arg0) = (x0 m c) :=
  Stretch.s0_keep_arg0 (W0 m ρ c)
theorem t1_arg1 : W1 m ρ c (Proc.devRef .tc main_arg1) = (x1 m c) :=
  Stretch.s0_keep_arg1 (W0 m ρ c)
theorem t1_arg3 : W1 m ρ c (Proc.devRef .tc main_arg3) = (x3 m c) :=
  Stretch.s0_keep_arg3 (W0 m ρ c)
theorem t1_arg4 : W1 m ρ c (Proc.devRef .tc main_arg4) = (x4 m c) :=
  Stretch.s0_keep_arg4 (W0 m ρ c)
theorem t1_arg5 : W1 m ρ c (Proc.devRef .tc main_arg5) = (x5 m c) :=
  Stretch.s0_keep_arg5 (W0 m ρ c)
theorem t1_arg6 : W1 m ρ c (Proc.devRef .tc main_arg6) = (x6 m c) :=
  Stretch.s0_keep_arg6 (W0 m ρ c)
theorem t1_v0 : W1 m ρ c (Proc.devRef .tc main_v0) = shapeCast S100000x1 (x2 m c) shapeCasts_S100000_S100000x1 :=
  Stretch.s0_v0 (W0 m ρ c)
theorem t1_v1 : W1 m ρ c (Proc.devRef .tc main_v1) = shapeCast S1x128 (x7 m c) shapeCasts_S128_S1x128 :=
  Stretch.s0_v1 (W0 m ρ c)
theorem t1_v2 : W1 m ρ c (Proc.devRef .tc main_v2) = shapeCast S1x128 (x8 m c) shapeCasts_S128_S1x128 :=
  Stretch.s0_v2 (W0 m ρ c)

/-! ## Boundary 2: after the time-encode launch -/

theorem t2_v3 : W2 m ρ c (Proc.devRef .tc main_v3) = val_main_v9 (F := Ideal) (x0 m c) (x2 m c) (x7 m c) (x8 m c) :=
  (W2_arr m ρ c 4).trans ((Encode.final (V1 m ρ) c).trans (by
    rw [show V1 m ρ c main_arg0 = _ from t1_arg0 m ρ c, show V1 m ρ c main_v0 = _ from t1_v0 m ρ c,
      show V1 m ρ c main_v1 = _ from t1_v1 m ρ c, show V1 m ρ c main_v2 = _ from t1_v2 m ρ c]
    exact Bridge.encode_eq _ _ _ _ _ _))
theorem t2_arg1 : W2 m ρ c (Proc.devRef .tc main_arg1) = (x1 m c) :=
  (W2_of_ne m ρ c main_arg1 (by decide)).trans (t1_arg1 m ρ c)
theorem t2_arg3 : W2 m ρ c (Proc.devRef .tc main_arg3) = (x3 m c) :=
  (W2_of_ne m ρ c main_arg3 (by decide)).trans (t1_arg3 m ρ c)
theorem t2_arg4 : W2 m ρ c (Proc.devRef .tc main_arg4) = (x4 m c) :=
  (W2_of_ne m ρ c main_arg4 (by decide)).trans (t1_arg4 m ρ c)
theorem t2_arg5 : W2 m ρ c (Proc.devRef .tc main_arg5) = (x5 m c) :=
  (W2_of_ne m ρ c main_arg5 (by decide)).trans (t1_arg5 m ρ c)
theorem t2_arg6 : W2 m ρ c (Proc.devRef .tc main_arg6) = (x6 m c) :=
  (W2_of_ne m ρ c main_arg6 (by decide)).trans (t1_arg6 m ρ c)

/-! ## Boundaries 3, 4, 5: the edge lists, the degree normalisation, the edge norm, the bias rows -/

theorem t3_v9 : W3 m ρ c (Proc.devRef .tc main_v9) = val_main_v13 (F := Ideal) (x1 m c) :=
  (Stretch.s1_v9 (W2 m ρ c)).trans (congrArg (val_main_v13 (F := Ideal)) (t2_arg1 m ρ c))
theorem t3_v10 : W3 m ρ c (Proc.devRef .tc main_v10) = val_main_v16 (F := Ideal) (x1 m c) :=
  (Stretch.s1_v10 (W2 m ρ c)).trans (congrArg (val_main_v16 (F := Ideal)) (t2_arg1 m ρ c))
theorem t3_v16 : W3 m ρ c (Proc.devRef .tc main_v16) = val_main_v22 (F := Ideal) (x1 m c) :=
  (Stretch.s1_v16 (W2 m ρ c)).trans (congrArg (val_main_v22 (F := Ideal)) (t2_arg1 m ρ c))
theorem t3_v19 : W3 m ρ c (Proc.devRef .tc main_v19) = val_main_v25 (F := Ideal) (x1 m c) :=
  (Stretch.s1_v19 (W2 m ρ c)).trans (congrArg (val_main_v25 (F := Ideal)) (t2_arg1 m ρ c))
theorem t3_cst_3 : W3 m ρ c (Proc.devRef .tc main_cst_3) = val_main_cst_3 (F := Ideal) :=
  Stretch.s1_cst_3 (W2 m ρ c)
theorem t3_v3 : W3 m ρ c (Proc.devRef .tc main_v3) = val_main_v9 (F := Ideal) (x0 m c) (x2 m c) (x7 m c) (x8 m c) :=
  (Stretch.s1_keep_v3 (W2 m ρ c)).trans (t2_v3 m ρ c)
theorem t3_arg3 : W3 m ρ c (Proc.devRef .tc main_arg3) = (x3 m c) :=
  (Stretch.s1_keep_arg3 (W2 m ρ c)).trans (t2_arg3 m ρ c)
theorem t3_arg4 : W3 m ρ c (Proc.devRef .tc main_arg4) = (x4 m c) :=
  (Stretch.s1_keep_arg4 (W2 m ρ c)).trans (t2_arg4 m ρ c)
theorem t3_arg5 : W3 m ρ c (Proc.devRef .tc main_arg5) = (x5 m c) :=
  (Stretch.s1_keep_arg5 (W2 m ρ c)).trans (t2_arg5 m ρ c)
theorem t3_arg6 : W3 m ρ c (Proc.devRef .tc main_arg6) = (x6 m c) :=
  (Stretch.s1_keep_arg6 (W2 m ρ c)).trans (t2_arg6 m ρ c)

theorem t4_v20 : W4 m ρ c (Proc.devRef .tc main_v20) = val_main_v26 (F := Ideal) (x1 m c) :=
  Stretch.s1b_v20 (W3 m ρ c) (x1 m c) (t3_v16 m ρ c) (t3_v19 m ρ c) (t3_cst_3 m ρ c)
theorem t4_v3 : W4 m ρ c (Proc.devRef .tc main_v3) = val_main_v9 (F := Ideal) (x0 m c) (x2 m c) (x7 m c) (x8 m c) :=
  (Stretch.s1b_keep_v3 (W3 m ρ c)).trans (t3_v3 m ρ c)
theorem t4_v9 : W4 m ρ c (Proc.devRef .tc main_v9) = val_main_v13 (F := Ideal) (x1 m c) :=
  (Stretch.s1b_keep_v9 (W3 m ρ c)).trans (t3_v9 m ρ c)
theorem t4_v10 : W4 m ρ c (Proc.devRef .tc main_v10) = val_main_v16 (F := Ideal) (x1 m c) :=
  (Stretch.s1b_keep_v10 (W3 m ρ c)).trans (t3_v10 m ρ c)
theorem t4_arg3 : W4 m ρ c (Proc.devRef .tc main_arg3) = (x3 m c) :=
  (Stretch.s1b_keep_arg3 (W3 m ρ c)).trans (t3_arg3 m ρ c)
theorem t4_arg4 : W4 m ρ c (Proc.devRef .tc main_arg4) = (x4 m c) :=
  (Stretch.s1b_keep_arg4 (W3 m ρ c)).trans (t3_arg4 m ρ c)
theorem t4_arg5 : W4 m ρ c (Proc.devRef .tc main_arg5) = (x5 m c) :=
  (Stretch.s1b_keep_arg5 (W3 m ρ c)).trans (t3_arg5 m ρ c)
theorem t4_arg6 : W4 m ρ c (Proc.devRef .tc main_arg6) = (x6 m c) :=
  (Stretch.s1b_keep_arg6 (W3 m ρ c)).trans (t3_arg6 m ρ c)

theorem t5_v36 : W5 m ρ c (Proc.devRef .tc main_v36) = shapeCast S1700000x1 (val_main_v42 (F := Ideal) (x1 m c)) shapeCasts_S1700000_S1700000x1 :=
  Stretch.s1c_v36 (W4 m ρ c) (x1 m c) (t4_v20 m ρ c) (t4_v9 m ρ c) (t4_v10 m ρ c)
theorem t5_v37 : W5 m ρ c (Proc.devRef .tc main_v37) = broadcastInDim S1x128 ![] bcast_S_S1x128 (constant (F := Ideal) S_ .f32 0x00000000#32) :=
  Stretch.s1c_v37 (W4 m ρ c)
theorem t5_v38 : W5 m ρ c (Proc.devRef .tc main_v38) = shapeCast S1x128 (x4 m c) shapeCasts_S128_S1x128 :=
  (Stretch.s1c_v38 (W4 m ρ c)).trans (congrArg (fun b => shapeCast S1x128 b shapeCasts_S128_S1x128) (t4_arg4 m ρ c))
theorem t5_v39 : W5 m ρ c (Proc.devRef .tc main_v39) = shapeCast S1x128 (x6 m c) shapeCasts_S128_S1x128 :=
  (Stretch.s1c_v39 (W4 m ρ c)).trans (congrArg (fun b => shapeCast S1x128 b shapeCasts_S128_S1x128) (t4_arg6 m ρ c))
theorem t5_v3 : W5 m ρ c (Proc.devRef .tc main_v3) = val_main_v9 (F := Ideal) (x0 m c) (x2 m c) (x7 m c) (x8 m c) :=
  (Stretch.s1c_keep_v3 (W4 m ρ c)).trans (t4_v3 m ρ c)
theorem t5_v9 : W5 m ρ c (Proc.devRef .tc main_v9) = val_main_v13 (F := Ideal) (x1 m c) :=
  (Stretch.s1c_keep_v9 (W4 m ρ c)).trans (t4_v9 m ρ c)
theorem t5_v10 : W5 m ρ c (Proc.devRef .tc main_v10) = val_main_v16 (F := Ideal) (x1 m c) :=
  (Stretch.s1c_keep_v10 (W4 m ρ c)).trans (t4_v10 m ρ c)
theorem t5_arg3 : W5 m ρ c (Proc.devRef .tc main_arg3) = (x3 m c) :=
  (Stretch.s1c_keep_arg3 (W4 m ρ c)).trans (t4_arg3 m ρ c)
theorem t5_arg5 : W5 m ρ c (Proc.devRef .tc main_arg5) = (x5 m c) :=
  (Stretch.s1c_keep_arg5 (W4 m ρ c)).trans (t4_arg5 m ρ c)

/-! ## Boundary 6: after the first product -/

theorem t6_v40 : W6 m ρ c (Proc.devRef .tc main_v40) = val_main_v27 (F := Ideal) (x0 m c) (x2 m c) (x3 m c) (x7 m c) (x8 m c) :=
  (W6_arr m ρ c 3).trans ((Matmul1.final (V5 m ρ) c).trans (by
    rw [show V5 m ρ c main_v3 = _ from t5_v3 m ρ c, show V5 m ρ c main_v37 = _ from t5_v37 m ρ c, show V5 m ρ c main_arg3 = _ from t5_arg3 m ρ c]
    exact Bridge.matmul_zero_eq _ _ _ _ _ _))
theorem t6_v9 : W6 m ρ c (Proc.devRef .tc main_v9) = val_main_v13 (F := Ideal) (x1 m c) :=
  (W6_of_ne m ρ c main_v9 (by decide)).trans (t5_v9 m ρ c)
theorem t6_v10 : W6 m ρ c (Proc.devRef .tc main_v10) = val_main_v16 (F := Ideal) (x1 m c) :=
  (W6_of_ne m ρ c main_v10 (by decide)).trans (t5_v10 m ρ c)
theorem t6_v36 : W6 m ρ c (Proc.devRef .tc main_v36) = shapeCast S1700000x1 (val_main_v42 (F := Ideal) (x1 m c)) shapeCasts_S1700000_S1700000x1 :=
  (W6_of_ne m ρ c main_v36 (by decide)).trans (t5_v36 m ρ c)
theorem t6_v38 : W6 m ρ c (Proc.devRef .tc main_v38) = shapeCast S1x128 (x4 m c) shapeCasts_S128_S1x128 :=
  (W6_of_ne m ρ c main_v38 (by decide)).trans (t5_v38 m ρ c)
theorem t6_v39 : W6 m ρ c (Proc.devRef .tc main_v39) = shapeCast S1x128 (x6 m c) shapeCasts_S128_S1x128 :=
  (W6_of_ne m ρ c main_v39 (by decide)).trans (t5_v39 m ρ c)
theorem t6_arg5 : W6 m ρ c (Proc.devRef .tc main_arg5) = (x5 m c) :=
  (W6_of_ne m ρ c main_arg5 (by decide)).trans (t5_arg5 m ρ c)

/-! ## Boundary 7: the product's rows gathered at the sources -/

theorem t7_v47 : W7 m ρ c (Proc.devRef .tc main_v47) = val_main_v49 (F := Ideal) (x0 m c) (x1 m c) (x2 m c) (x3 m c) (x7 m c) (x8 m c) :=
  Stretch.s2_v47 (W6 m ρ c) (x0 m c) (x1 m c) (x2 m c) (x3 m c) (x7 m c) (x8 m c) (t6_v40 m ρ c) (t6_v9 m ρ c)
theorem t7_v9 : W7 m ρ c (Proc.devRef .tc main_v9) = val_main_v13 (F := Ideal) (x1 m c) :=
  (Stretch.s2_keep_v9 (W6 m ρ c)).trans (t6_v9 m ρ c)
theorem t7_v10 : W7 m ρ c (Proc.devRef .tc main_v10) = val_main_v16 (F := Ideal) (x1 m c) :=
  (Stretch.s2_keep_v10 (W6 m ρ c)).trans (t6_v10 m ρ c)
theorem t7_v36 : W7 m ρ c (Proc.devRef .tc main_v36) = shapeCast S1700000x1 (val_main_v42 (F := Ideal) (x1 m c)) shapeCasts_S1700000_S1700000x1 :=
  (Stretch.s2_keep_v36 (W6 m ρ c)).trans (t6_v36 m ρ c)
theorem t7_v38 : W7 m ρ c (Proc.devRef .tc main_v38) = shapeCast S1x128 (x4 m c) shapeCasts_S128_S1x128 :=
  (Stretch.s2_keep_v38 (W6 m ρ c)).trans (t6_v38 m ρ c)
theorem t7_v39 : W7 m ρ c (Proc.devRef .tc main_v39) = shapeCast S1x128 (x6 m c) shapeCasts_S128_S1x128 :=
  (Stretch.s2_keep_v39 (W6 m ρ c)).trans (t6_v39 m ρ c)
theorem t7_arg5 : W7 m ρ c (Proc.devRef .tc main_arg5) = (x5 m c) :=
  (Stretch.s2_keep_arg5 (W6 m ρ c)).trans (t6_arg5 m ρ c)

/-! ## Boundary 8: the messages scaled by the edge norm -/

theorem t8_v48 : W8 m ρ c (Proc.devRef .tc main_v48) = val_main_v52 (F := Ideal) (x0 m c) (x1 m c) (x2 m c) (x3 m c) (x7 m c) (x8 m c) :=
  (W8_arr m ρ c 2).trans ((Scale1.final (V7 m ρ) c).trans (by
    rw [show V7 m ρ c main_v47 = _ from t7_v47 m ρ c, show V7 m ρ c main_v36 = _ from t7_v36 m ρ c]
    exact Bridge.scale_eq _ _ _ _ _ _ _))
theorem t8_v9 : W8 m ρ c (Proc.devRef .tc main_v9) = val_main_v13 (F := Ideal) (x1 m c) :=
  (W8_of_ne m ρ c main_v9 (by decide)).trans (t7_v9 m ρ c)
theorem t8_v10 : W8 m ρ c (Proc.devRef .tc main_v10) = val_main_v16 (F := Ideal) (x1 m c) :=
  (W8_of_ne m ρ c main_v10 (by decide)).trans (t7_v10 m ρ c)
/-- The edge norm is an input of the scaling launch: an input's array is left as found. -/
theorem t8_v36 : W8 m ρ c (Proc.devRef .tc main_v36) = shapeCast S1700000x1 (val_main_v42 (F := Ideal) (x1 m c)) shapeCasts_S1700000_S1700000x1 :=
  (W8_arr m ρ c 1).trans (((dat2 (V7 m ρ) c).arrAt_in 1 rfl _).trans ((A_eq2 (V7 m ρ) c 1).trans (t7_v36 m ρ c)))
theorem t8_v38 : W8 m ρ c (Proc.devRef .tc main_v38) = shapeCast S1x128 (x4 m c) shapeCasts_S128_S1x128 :=
  (W8_of_ne m ρ c main_v38 (by decide)).trans (t7_v38 m ρ c)
theorem t8_v39 : W8 m ρ c (Proc.devRef .tc main_v39) = shapeCast S1x128 (x6 m c) shapeCasts_S128_S1x128 :=
  (W8_of_ne m ρ c main_v39 (by decide)).trans (t7_v39 m ρ c)
theorem t8_arg5 : W8 m ρ c (Proc.devRef .tc main_arg5) = (x5 m c) :=
  (W8_of_ne m ρ c main_arg5 (by decide)).trans (t7_arg5 m ρ c)

/-! ## Boundary 9: the messages summed at the destinations -/

theorem t9_v51 : W9 m ρ c (Proc.devRef .tc main_v51) = val_main_v55 (F := Ideal) (x0 m c) (x1 m c) (x2 m c) (x3 m c) (x7 m c) (x8 m c) :=
  Stretch.s3_v51 (W8 m ρ c) (x0 m c) (x1 m c) (x2 m c) (x3 m c) (x7 m c) (x8 m c) (t8_v48 m ρ c) (t8_v10 m ρ c)
theorem t9_v9 : W9 m ρ c (Proc.devRef .tc main_v9) = val_main_v13 (F := Ideal) (x1 m c) :=
  (Stretch.s3_keep_v9 (W8 m ρ c)).trans (t8_v9 m ρ c)
theorem t9_v10 : W9 m ρ c (Proc.devRef .tc main_v10) = val_main_v16 (F := Ideal) (x1 m c) :=
  (Stretch.s3_keep_v10 (W8 m ρ c)).trans (t8_v10 m ρ c)
theorem t9_v36 : W9 m ρ c (Proc.devRef .tc main_v36) = shapeCast S1700000x1 (val_main_v42 (F := Ideal) (x1 m c)) shapeCasts_S1700000_S1700000x1 :=
  (Stretch.s3_keep_v36 (W8 m ρ c)).trans (t8_v36 m ρ c)
theorem t9_v38 : W9 m ρ c (Proc.devRef .tc main_v38) = shapeCast S1x128 (x4 m c) shapeCasts_S128_S1x128 :=
  (Stretch.s3_keep_v38 (W8 m ρ c)).trans (t8_v38 m ρ c)
theorem t9_v39 : W9 m ρ c (Proc.devRef .tc main_v39) = shapeCast S1x128 (x6 m c) shapeCasts_S128_S1x128 :=
  (Stretch.s3_keep_v39 (W8 m ρ c)).trans (t8_v39 m ρ c)
theorem t9_arg5 : W9 m ρ c (Proc.devRef .tc main_arg5) = (x5 m c) :=
  (Stretch.s3_keep_arg5 (W8 m ρ c)).trans (t8_arg5 m ρ c)

/-! ## Boundary 10: after the second product (the first layer's bias added inside) -/

theorem t10_v52 : W10 m ρ c (Proc.devRef .tc main_v52) = val_main_v59 (F := Ideal) (x0 m c) (x1 m c) (x2 m c) (x3 m c) (x4 m c) (x5 m c) (x7 m c) (x8 m c) :=
  (W10_arr m ρ c 3).trans ((Matmul2.final (V9 m ρ) c).trans (by
    rw [show V9 m ρ c main_v51 = _ from t9_v51 m ρ c, show V9 m ρ c main_v38 = _ from t9_v38 m ρ c, show V9 m ρ c main_arg5 = _ from t9_arg5 m ρ c]
    exact Bridge.matmul_bias_eq _ _ _ _ _ _ _ _ _))
theorem t10_v9 : W10 m ρ c (Proc.devRef .tc main_v9) = val_main_v13 (F := Ideal) (x1 m c) :=
  (W10_of_ne m ρ c main_v9 (by decide)).trans (t9_v9 m ρ c)
theorem t10_v10 : W10 m ρ c (Proc.devRef .tc main_v10) = val_main_v16 (F := Ideal) (x1 m c) :=
  (W10_of_ne m ρ c main_v10 (by decide)).trans (t9_v10 m ρ c)
theorem t10_v36 : W10 m ρ c (Proc.devRef .tc main_v36) = shapeCast S1700000x1 (val_main_v42 (F := Ideal) (x1 m c)) shapeCasts_S1700000_S1700000x1 :=
  (W10_of_ne m ρ c main_v36 (by decide)).trans (t9_v36 m ρ c)
theorem t10_v39 : W10 m ρ c (Proc.devRef .tc main_v39) = shapeCast S1x128 (x6 m c) shapeCasts_S128_S1x128 :=
  (W10_of_ne m ρ c main_v39 (by decide)).trans (t9_v39 m ρ c)

/-! ## Boundary 11: the second gather -/

theorem t11_v59 : W11 m ρ c (Proc.devRef .tc main_v59) = val_main_v81 (F := Ideal) (x0 m c) (x1 m c) (x2 m c) (x3 m c) (x4 m c) (x5 m c) (x7 m c) (x8 m c) :=
  Stretch.s4_v59 (W10 m ρ c) (x0 m c) (x1 m c) (x2 m c) (x3 m c) (x4 m c) (x5 m c) (x7 m c) (x8 m c) (t10_v52 m ρ c) (t10_v9 m ρ c)
theorem t11_v10 : W11 m ρ c (Proc.devRef .tc main_v10) = val_main_v16 (F := Ideal) (x1 m c) :=
  (Stretch.s4_keep_v10 (W10 m ρ c)).trans (t10_v10 m ρ c)
theorem t11_v36 : W11 m ρ c (Proc.devRef .tc main_v36) = shapeCast S1700000x1 (val_main_v42 (F := Ideal) (x1 m c)) shapeCasts_S1700000_S1700000x1 :=
  (Stretch.s4_keep_v36 (W10 m ρ c)).trans (t10_v36 m ρ c)
theorem t11_v39 : W11 m ρ c (Proc.devRef .tc main_v39) = shapeCast S1x128 (x6 m c) shapeCasts_S128_S1x128 :=
  (Stretch.s4_keep_v39 (W10 m ρ c)).trans (t10_v39 m ρ c)

/-! ## Boundary 12: the second scaling -/

theorem t12_v60 : W12 m ρ c (Proc.devRef .tc main_v60) = val_main_v84 (F := Ideal) (x0 m c) (x1 m c) (x2 m c) (x3 m c) (x4 m c) (x5 m c) (x7 m c) (x8 m c) :=
  (W12_arr m ρ c 2).trans ((Scale2.final (V11 m ρ) c).trans (by
    rw [show V11 m ρ c main_v59 = _ from t11_v59 m ρ c, show V11 m ρ c main_v36 = _ from t11_v36 m ρ c]
    exact Bridge.scale_eq' _ _ _ _ _ _ _ _ _))
theorem t12_v10 : W12 m ρ c (Proc.devRef .tc main_v10) = val_main_v16 (F := Ideal) (x1 m c) :=
  (W12_of_ne m ρ c main_v10 (by decide)).trans (t11_v10 m ρ c)
theorem t12_v39 : W12 m ρ c (Proc.devRef .tc main_v39) = shapeCast S1x128 (x6 m c) shapeCasts_S128_S1x128 :=
  (W12_of_ne m ρ c main_v39 (by decide)).trans (t11_v39 m ρ c)

/-! ## Boundary 13: the second scatter-add -/

theorem t13_v63 : W13 m ρ c (Proc.devRef .tc main_v63) = val_main_v87 (F := Ideal) (x0 m c) (x1 m c) (x2 m c) (x3 m c) (x4 m c) (x5 m c) (x7 m c) (x8 m c) :=
  Stretch.s5_v63 (W12 m ρ c) (x0 m c) (x1 m c) (x2 m c) (x3 m c) (x4 m c) (x5 m c) (x7 m c) (x8 m c) (t12_v60 m ρ c) (t12_v10 m ρ c)
theorem t13_v39 : W13 m ρ c (Proc.devRef .tc main_v39) = shapeCast S1x128 (x6 m c) shapeCasts_S128_S1x128 :=
  (Stretch.s5_keep_v39 (W12 m ρ c)).trans (t12_v39 m ρ c)

/-! ## Boundary 14: the closing bias — the result -/

/-- The kernel program's result buffer at its last boundary holds the reference's result stage of the arguments. -/
theorem t14_v64 : W14 m ρ c (Proc.devRef .tc main_v64) = val_main_v90 (F := Ideal) (x0 m c) (x1 m c) (x2 m c) (x3 m c) (x4 m c) (x5 m c) (x6 m c) (x7 m c) (x8 m c) :=
  (W14_arr m ρ c 2).trans ((BiasAdd.final (V13 m ρ) c).trans (by
    rw [show V13 m ρ c main_v63 = _ from t13_v63 m ρ c, show V13 m ρ c main_v39 = _ from t13_v39 m ρ c]
    exact Bridge.addRow_eq _ _ _ _ _ _ _ _ _ _))

end Cert.KernelIdeal.Chain

end
-- ==== Proof.lean ====
/-
  A two-layer graph convolution over time-encoded node features, `N = 100000` nodes, `E = 1600000` edges plus one self
  loop per node, `D = 128` features:

      h   = x + cos (t · freq + phase)
      out = Â (Â (h W₁) + b₁) W₂ + b₂,      Â y = scatter-add over dst of (norm · y[src]),   norm = dinv[src] · dinv[dst].

  The kernel program computes `h`, the two `D × D` products (the second with `b₁` added inside the launch, the first with a
  zero row), the two scalings by `norm` and the closing `+ b₂` in six gridded launches, and everything that depends on
  the graph (the edge lists, the degrees and their inverse roots, the gathers and the scatter-adds) in host operations
  that are the reference's own. At the ideal values each launch is ONE whole-array function of the arrays it finds (its
  blocks tile the array and each point computes its block from its own rows), that function reads index by index as the
  reference's stage, and the host operations in between are the same terms; so the result buffer holds the reference's
  result stage of the nine arguments. No law beyond `x + 0 = x` on the extended reals joins the two sides, and the
  precondition is not used.

  The frames of the two kernel programs are the generated ones; the reference's frame and its result are its run.
  `preserves` has no entry.
-/
import proofs.«119969_j68659347194091_1_alg».proof.Defs
import proofs.«119969_j68659347194091_1_alg».proof.Proof.Gen.Kernel
import proofs.«119969_j68659347194091_1_alg».proof.Proof.Gen.Kernel.Skeleton
import proofs.«119969_j68659347194091_1_alg».proof.Proof.Gen.Kernel.Launch
import proofs.«119969_j68659347194091_1_alg».proof.Proof.Gen.Kernel.Points
import proofs.«119969_j68659347194091_1_alg».proof.Proof.Gen.Kernel.Frame
import proofs.«119969_j68659347194091_1_alg».proof.Proof.Gen.KernelIdeal
import proofs.«119969_j68659347194091_1_alg».proof.Proof.Gen.KernelIdeal.Skeleton
import proofs.«119969_j68659347194091_1_alg».proof.Proof.Gen.KernelIdeal.Launch
import proofs.«119969_j68659347194091_1_alg».proof.Proof.Gen.KernelIdeal.Points
import proofs.«119969_j68659347194091_1_alg».proof.Proof.Gen.KernelIdeal.Frame
import proofs.«119969_j68659347194091_1_alg».proof.Proof.Gen.ReferenceIdeal
import proofs.«119969_j68659347194091_1_alg».proof.Proof.Gen.Pre_finite_inputs
import proofs.«119969_j68659347194091_1_alg».proof.Proof.KernelRun
import proofs.«119969_j68659347194091_1_alg».proof.Proof.RefRead
import proofs.«119969_j68659347194091_1_alg».proof.Proof.Chain
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the reference's result stage `v90` of the arguments: the kernel program by the chain of its
    boundaries, the reference by its run, from memories that agree on the arguments. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Chain.t14_v64 m ρ c), (h c).2⟩)
    (Cert.KernelIdeal.RunValue.run_result (F := Ideal) m ρ), ?_⟩
  refine (θ_run Cert.ReferenceIdeal.defs _ _).mono (fun r h c => ⟨(h c).1.trans ?_, (h c).2⟩)
    (Cert.ReferenceIdeal.ValueP.run (F := Ideal) m' ρ')
  obtain ⟨h0, h1, h2, h3, h4, h5, h6, h7, h8⟩ := hagree c
  rw [Cert.ReferenceIdeal.ReadP.val_main_v90_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
